-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_v53) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S8192x256 : Shape := ⟨2, ![8192, 256]⟩
abbrev S1024x4096 : Shape := ⟨2, ![1024, 4096]⟩
abbrev S4096 : Shape := ⟨1, ![4096]⟩
abbrev S1024x1024 : Shape := ⟨2, ![1024, 1024]⟩
abbrev S1024 : Shape := ⟨1, ![1024]⟩
abbrev S256x4096 : Shape := ⟨2, ![256, 4096]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x256 : S_.BroadcastsInDim S8192x256 (![] : Fin 0 → Fin S8192x256.rank)
  reducesTo_S8192x256_S_d0_1 : S8192x256.ReducesTo [0, 1] S_
  bcast_S_S1024x4096 : S_.BroadcastsInDim S1024x4096 (![] : Fin 0 → Fin S1024x4096.rank)
  reducesTo_S1024x4096_S_d0_1 : S1024x4096.ReducesTo [0, 1] S_
  bcast_S_S4096 : S_.BroadcastsInDim S4096 (![] : Fin 0 → Fin S4096.rank)
  reducesTo_S4096_S_d0 : S4096.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S256x4096 : S_.BroadcastsInDim S256x4096 (![] : Fin 0 → Fin S256x4096.rank)
  reducesTo_S256x4096_S_d0_1 : S256x4096.ReducesTo [0, 1] S_

variable [Facts]

def fn_part3 {F : FTy → Type} [FloatOps F] (main_arg11 : FVec F S256x4096 .f32) (main_arg12 : FVec F S4096 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S256x4096 .f32 := Host.absf main_arg11
  let main_cst_20 : FVec F S_ .f32 := constant S_ .f32 0x7F800000#32
  let main_v55 : FVec F S256x4096 .f32 := broadcastInDim S256x4096 ![] bcast_S_S256x4096 main_cst_20
  let main_v56 : IVec S256x4096 1 := cmpf .olt main_v54 main_v55
  let main_c_21 : IVec S_ 1 := constantI S_ 1 1#1
  let main_v57 : IVec S_ 1 := (fun x v => Host.reduce IntOp.andi x v reducesTo_S256x4096_S_d0_1 h_S_) main_v56 main_c_21
  let main_v58 : IVec S_ 1 := andi main_v53 main_v57
  let main_v59 : FVec F S4096 .f32 := Host.absf main_arg12
  let main_cst_22 : FVec F S_ .f32 := constant S_ .f32 0x7F800000#32
  let main_v60 : FVec F S4096 .f32 := broadcastInDim S4096 ![] bcast_S_S4096 main_cst_22
  let main_v61 : IVec S4096 1 := cmpf .olt main_v59 main_v60
  let main_c_23 : IVec S_ 1 := constantI S_ 1 1#1
  let main_v62 : IVec S_ 1 := (fun x v => Host.reduce IntOp.andi x v reducesTo_S4096_S_d0 h_S_) main_v61 main_c_23
  let main_v63 : IVec S_ 1 := andi main_v58 main_v62
  main_v63

def fn_part2 {F : FTy → Type} [FloatOps F] (main_arg7 : FVec F S1024x4096 .f32) (main_arg8 : FVec F S4096 .f32) (main_arg9 : FVec F S1024x1024 .f32) (main_arg10 : FVec F S1024 .f32) (main_arg11 : FVec F S256x4096 .f32) (main_arg12 : FVec F S4096 .f32) (main_v33 : IVec S_ 1) : IVec S_ 1 :=
  let main_v34 : FVec F S1024x4096 .f32 := Host.absf main_arg7
  let main_cst_12 : FVec F S_ .f32 := constant S_ .f32 0x7F800000#32
  let main_v35 : FVec F S1024x4096 .f32 := broadcastInDim S1024x4096 ![] bcast_S_S1024x4096 main_cst_12
  let main_v36 : IVec S1024x4096 1 := cmpf .olt main_v34 main_v35
  let main_c_13 : IVec S_ 1 := constantI S_ 1 1#1
  let main_v37 : IVec S_ 1 := (fun x v => Host.reduce IntOp.andi x v reducesTo_S1024x4096_S_d0_1 h_S_) main_v36 main_c_13
  let main_v38 : IVec S_ 1 := andi main_v33 main_v37
  let main_v39 : FVec F S4096 .f32 := Host.absf main_arg8
  let main_cst_14 : FVec F S_ .f32 := constant S_ .f32 0x7F800000#32
  let main_v40 : FVec F S4096 .f32 := broadcastInDim S4096 ![] bcast_S_S4096 main_cst_14
  let main_v41 : IVec S4096 1 := cmpf .olt main_v39 main_v40
  let main_c_15 : IVec S_ 1 := constantI S_ 1 1#1
  let main_v42 : IVec S_ 1 := (fun x v => Host.reduce IntOp.andi x v reducesTo_S4096_S_d0 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_v48 main_v49 main_v50

def fn_part1 {F : FTy → Type} [FloatOps F] (main_arg4 : FVec F S8192x256 .f32) (main_arg5 : FVec F S1024x4096 .f32) (main_arg6 : FVec F S4096 .f32) (main_arg7 : FVec F S1024x4096 .f32) (main_arg8 : FVec F S4096 .f32) (main_arg9 : FVec F S1024x1024 .f32) (main_arg10 : FVec F S1024 .f32) (main_arg11 : FVec F S256x4096 .f32) (main_arg12 : FVec F S4096 .f32) (main_v13 : IVec S_ 1) (main_v16 : IVec S8192x1024 1) : IVec S_ 1 :=
  let main_c_5 : IVec S_ 1 := constantI S_ 1 1#1
  let main_v17 : IVec S_ 1 := (fun x v => Host.reduce IntOp.andi x v reducesTo_S8192x1024_S_d0_1 h_S_) main_v16 main_c_5
  let main_v18 : IVec S_ 1 := andi main_v13 main_v17
  let main_v19 : FVec F S8192x256 .f32 := Host.absf main_arg4
  let main_cst_6 : FVec F S_ .f32 := constant S_ .f32 0x7F800000#32
  let main_v20 : FVec F S8192x256 .f32 := broadcastInDim S8192x256 ![] bcast_S_S8192x256 main_cst_6
  let main_v21 : IVec S8192x256 1 := cmpf .olt main_v19 main_v20
  let main_c_7 : IVec S_ 1 := constantI S_ 1 1#1
  let main_v22 : IVec S_ 1 := (fun x v => Host.reduce IntOp.andi x v reducesTo_S8192x256_S_d0_1 h_S_) main_v21 main_c_7
  let main_v23 : IVec S_ 1 := andi main_v18 main_v22
  let main_v24 : FVec F S1024x4096 .f32 := Host.absf main_arg5
  let main_cst_8 : FVec F S_ .f32 := constant S_ .f32 0x7F800000#32
  let main_v25 : FVec F S1024x4096 .f32 := broadcastInDim S1024x4096 ![] bcast_S_S1024x4096 main_cst_8
  let main_v26 : IVec S1024x4096 1 := cmpf .olt main_v24 main_v25
  let main_c_9 : IVec S_ 1 := constantI S_ 1 1#1
  let main_v27 : IVec S_ 1 := (fun x v => Host.reduce IntOp.andi x v reducesTo_S1024x4096_S_d0_1 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S8192x1024 .f32) (main_arg1 : FVec F S8192x1024 .f32) (main_arg2 : FVec F S8192x1024 .f32) (main_arg3 : FVec F S8192x1024 .f32) (main_arg4 : FVec F S8192x256 .f32) (main_arg5 : FVec F S1024x4096 .f32) (main_arg6 : FVec F S4096 .f32) (main_arg7 : FVec F S1024x4096 .f32) (main_arg8 : FVec F S4096 .f32) (main_arg9 : FVec F S1024x1024 .f32) (main_arg10 : FVec F S1024 .f32) (main_arg11 : FVec F S256x4096 .f32) (main_arg12 : FVec F S4096 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S8192x1024 .f32 := Host.absf main_arg3
  let main_cst_4 : FVec F S_ .f32 := constant S_ .f32 0x7F800000#32
  let main_v15 : FVec F S8192x1024 .f32 := broadcastInDim S8192x1024 ![] bcast_S_S8192x1024 main_cst_4
  let main_v16 : IVec S8192x1024 1 := cmpf .olt main_v14 main_v15
  fn_part1 (F := F) main_arg4 main_arg5 main_arg6 main_arg7 main_arg8 main_arg9 main_arg10 main_arg11 main_arg12 main_v13 main_v16
-- ==== Kernel.lean ====
abbrev S8192x1024 : Shape := ⟨2, ![8192, 1024]⟩
abbrev S8192x256 : Shape := ⟨2, ![8192, 256]⟩
abbrev S1024x4096 : Shape := ⟨2, ![1024, 4096]⟩
abbrev S4096 : Shape := ⟨1, ![4096]⟩
abbrev S1024x1024 : Shape := ⟨2, ![1024, 1024]⟩
abbrev S1024 : Shape := ⟨1, ![1024]⟩
abbrev S256x4096 : Shape := ⟨2, ![256, 4096]⟩
abbrev S1x4096 : Shape := ⟨2, ![1, 4096]⟩
abbrev S1x1024 : Shape := ⟨2, ![1, 1024]⟩
abbrev S128x1024 : Shape := ⟨2, ![128, 1024]⟩
abbrev S128x256 : Shape := ⟨2, ![128, 256]⟩
abbrev S128x4096 : Shape := ⟨2, ![128, 4096]⟩

abbrev nBuf : Space → Nat
  | .hbm => 23
  | .vmem => 22
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192x256, .f32⟩
  | .hbm, ⟨5, _⟩ => ⟨S1024x4096, .f32⟩
  | .hbm, ⟨6, _⟩ => ⟨S4096, .f32⟩
  | .hbm, ⟨7, _⟩ => ⟨S1024x4096, .f32⟩
  | .hbm, ⟨8, _⟩ => ⟨S4096, .f32⟩
  | .hbm, ⟨9, _⟩ => ⟨S1024x1024, .f32⟩
  | .hbm, ⟨10, _⟩ => ⟨S1024, .f32⟩
  | .hbm, ⟨11, _⟩ => ⟨S256x4096, .f32⟩
  | .hbm, ⟨12, _⟩ => ⟨S4096, .f32⟩
  | .hbm, ⟨13, _⟩ => ⟨S1024x4096, .bf16⟩
  | .hbm, ⟨14, _⟩ => ⟨S1024x4096, .bf16⟩
  | .hbm, ⟨15, _⟩ => ⟨S256x4096, .bf16⟩
  | .hbm, ⟨16, _⟩ => ⟨S1024x1024, .bf16⟩
  | .hbm, ⟨17, _⟩ => ⟨S1x4096, .f32⟩
  | .hbm, ⟨18, _⟩ => ⟨S1x4096, .f32⟩
  | .hbm, ⟨19, _⟩ => ⟨S1x4096, .f32⟩
  | .hbm, ⟨20, _⟩ => ⟨S1x1024, .f32⟩
  | .hbm, ⟨21, _⟩ => ⟨S8192x1024, .f32⟩
  | .hbm, ⟨22, _⟩ => ⟨S8192x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x256, .f32⟩
  | .local _ .vmem, ⟨7, _⟩ => ⟨S128x256, .f32⟩
  | .local _ .vmem, ⟨8, _⟩ => ⟨S128x1024, .f32⟩
  | .local _ .vmem, ⟨9, _⟩ => ⟨S128x1024, .f32⟩
  | .local _ .vmem, ⟨10, _⟩ => ⟨S1024x4096, .bf16⟩
  | .local _ .vmem, ⟨11, _⟩ => ⟨S1024x4096, .bf16⟩
  | .local _ .vmem, ⟨12, _⟩ => ⟨S256x4096, .bf16⟩
  | .local _ .vmem, ⟨13, _⟩ => ⟨S1024x1024, .bf16⟩
  | .local _ .vmem, ⟨14, _⟩ => ⟨S1x4096, .f32⟩
  | .local _ .vmem, ⟨15, _⟩ => ⟨S1x4096, .f32⟩
  | .local _ .vmem, ⟨16, _⟩ => ⟨S1x4096, .f32⟩
  | .local _ .vmem, ⟨17, _⟩ => ⟨S1x1024, .f32⟩
  | .local _ .vmem, ⟨18, _⟩ => ⟨S128x1024, .f32⟩
  | .local _ .vmem, ⟨19, _⟩ => ⟨S128x1024, .f32⟩
  | .local _ .vmem, ⟨20, _⟩ => ⟨S128x1024, .f32⟩
  | .local _ .vmem, ⟨21, _⟩ => ⟨S128x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8_0 : Ref sig .tc := ⟨.hbm, 21, rfl⟩
abbrev main_v8_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19
abbrev cc0_sem14_0 : DmaSem sig := 20
abbrev cc0_sem14_1 : DmaSem sig := 21

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x4096 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x4096 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S128x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S128x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

class Facts₀ : Prop where
  bitsLt_bf16_f32 : FTy.bits .bf16 < FTy.bits .f32
  shapeCasts_S4096_S1x4096 : S4096.ShapeCasts S1x4096
  shapeCasts_S1024_S1x1024 : S1024.ShapeCasts S1x1024
  inb_S128x1024_S128x1024_0_0 : ∀ a, (![0, 0] : Fin 2 → Nat) a + S128x1024.size a ≤ S128x1024.size a
  h_S128x1024 : 0 < S128x1024.numel
  inb_S128x256_S128x256_0_0 : ∀ a, (![0, 0] : Fin 2 → Nat) a + S128x256.size a ≤ S128x256.size a
  h_S128x256 : 0 < S128x256.numel
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S128x4096 : S1x4096.Broadcasts S128x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S128x1024 : S1x1024.Broadcasts S128x1024
  slices_S128x4096_o0_0_S128x1024 : S128x4096.Slices ![0, 0] S128x1024
  slices_S128x4096_o0_1024_S128x1024 : S128x4096.Slices ![0, 1024] S128x1024
  slices_S128x4096_o0_2048_S128x1024 : S128x4096.Slices ![0, 2048] S128x1024
  slices_S128x4096_o0_3072_S128x1024 : S128x4096.Slices ![0, 3072] S128x1024
  dot_S128x1024_S1024x4096_S128x4096_1_0_0_1_n_n_wf : DotDims.WF S128x1024 S1024x4096 S128x4096 [1] [0] [0] [1] [] []
  dot_S128x256_S256x4096_S128x4096_1_0_0_1_n_n_wf : DotDims.WF S128x256 S256x4096 S128x4096 [1] [0] [0] [1] [] []
  dot_S128x1024_S1024x1024_S128x1024_1_0_0_1_n_n_wf : DotDims.WF S128x1024 S1024x1024 S128x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S8192x1024.size a
  hwx0_0 : ∀ i : grid0.Coords, EltTy.bits .f32 = 32 ∨ (Rect.block (s := S8192x1024) S128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S8192x1024.size a
  hwx0_1 : ∀ i : grid0.Coords, EltTy.bits .f32 = 32 ∨ (Rect.block (s := S8192x1024) S128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S8192x1024.size a
  hwx0_2 : ∀ i : grid0.Coords, EltTy.bits .f32 = 32 ∨ (Rect.block (s := S8192x1024) S128x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S8192x256.size a
  hwx0_3 : ∀ i : grid0.Coords, EltTy.bits .f32 = 32 ∨ (Rect.block (s := S8192x256) S128x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x1024.size a ≤ S8192x1024.size a
  hwx0_4 : ∀ i : grid0.Coords, EltTy.bits .f32 = 32 ∨ (Rect.block (s := S8192x1024) S128x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x4096.size a ≤ S1024x4096.size a
  hwx0_5 : ∀ i : grid0.Coords, EltTy.bits .bf16 = 32 ∨ (Rect.block (s := S1024x4096) S1024x4096.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x4096.size a ≤ S1024x4096.size a
  hwx0_6 : ∀ i : grid0.Coords, EltTy.bits .bf16 = 32 ∨ (Rect.block (s := S1024x4096) S1024x4096.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x4096.size a ≤ S256x4096.size a
  hwx0_7 : ∀ i : grid0.Coords, EltTy.bits .bf16 = 32 ∨ (Rect.block (s := S256x4096) S256x4096.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1024x1024.size a ≤ S1024x1024.size a
  hwx0_8 : ∀ i : grid0.Coords, EltTy.bits .bf16 = 32 ∨ (Rect.block (s := S1024x1024) S1024x1024.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x4096.size a ≤ S1x4096.size a
  hwx0_9 : ∀ i : grid0.Coords, EltTy.bits .f32 = 32 ∨ (Rect.block (s := S1x4096) S1x4096.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x4096.size a ≤ S1x4096.size a
  hwx0_10 : ∀ i : grid0.Coords, EltTy.bits .f32 = 32 ∨ (Rect.block (s := S1x4096) S1x4096.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x4096.size a ≤ S1x4096.size a
  hwx0_11 : ∀ i : grid0.Coords, EltTy.bits .f32 = 32 ∨ (Rect.block (s := S1x4096) S1x4096.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x1024.size a ≤ S1x1024.size a
  hwx0_12 : ∀ i : grid0.Coords, EltTy.bits .f32 = 32 ∨ (Rect.block (s := S1x1024) S1x1024.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S128x1024.size a ≤ S8192x1024.size a
  hwx0_13 : ∀ i : grid0.Coords, EltTy.bits .f32 = 32 ∨ (Rect.block (s := S8192x1024) S128x1024.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S128x1024.size a ≤ S8192x1024.size a
  hwx0_14 : ∀ i : grid0.Coords, EltTy.bits .f32 = 32 ∨ (Rect.block (s := S8192x1024) S128x1024.size (cc0_transform_14 i) (hinb0_14 i)).WholeWords (EltTy.packing .f32)

variable [Facts₀]

def dot_S128x1024_S1024x4096_S128x4096_1_0_0_1_n_n : DotDims S128x1024 S1024x4096 S128x4096 where
  lhsContracting := [1]
  rhsContracting := [0]
  lhsNonContracting := [0]
  rhsNonContracting := [1]
  lhsBatch := []
  rhsBatch := []
  wf := dot_S128x1024_S1024x4096_S128x4096_1_0_0_1_n_n_wf
def dot_S128x256_S256x4096_S128x4096_1_0_0_1_n_n : DotDims S128x256 S256x4096 S128x4096 where
  lhsContracting := [1]
  rhsContracting := [0]
  lhsNonContracting := [0]
  rhsNonContracting := [1]
  lhsBatch := []
  rhsBatch := []
  wf := dot_S128x256_S256x4096_S128x4096_1_0_0_1_n_n_wf
def dot_S128x1024_S1024x1024_S128x1024_1_0_0_1_n_n : DotDims S128x1024 S1024x1024 S128x1024 where
  lhsContracting := [1]
  rhsContracting := [0]
  lhsNonContracting := [0]
  rhsNonContracting := [1]
  lhsBatch := []
  rhsBatch := []
  wf := dot_S128x1024_S1024x1024_S128x1024_1_0_0_1_n_n_wf

abbrev win0_0 : Pipeline.Window sig grid0 :=
  Pipeline.Window.ofSpec (Memref.whole main_arg0) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S128x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1024x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S1024x4096.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S256x4096.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S1024x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v4) S1x4096.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v5) S1x4096.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v6) S1x4096.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v7) S1x1024.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v8_0) S128x1024.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v8_1) S128x1024.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S8192x256 : Shape := ⟨2, ![8192, 256]⟩
abbrev S1024x4096 : Shape := ⟨2, ![1024, 4096]⟩
abbrev S4096 : Shape := ⟨1, ![4096]⟩
abbrev S1024x1024 : Shape := ⟨2, ![1024, 1024]⟩
abbrev S1024 : Shape := ⟨1, ![1024]⟩
abbrev S256x4096 : Shape := ⟨2, ![256, 4096]⟩
abbrev S8192x4096 : Shape := ⟨2, ![8192, 4096]⟩
abbrev S1x4096 : Shape := ⟨2, ![1, 4096]⟩
abbrev S1x1024 : Shape := ⟨2, ![1, 1024]⟩
abbrev S_ : Shape := ⟨0, ![]⟩

abbrev nBuf : Space → Nat
  | .hbm => 75
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192x256, .f32⟩
  | .hbm, ⟨5, _⟩ => ⟨S1024x4096, .f32⟩
  | .hbm, ⟨6, _⟩ => ⟨S4096, .f32⟩
  | .hbm, ⟨7, _⟩ => ⟨S1024x4096, .f32⟩
  | .hbm, ⟨8, _⟩ => ⟨S4096, .f32⟩
  | .hbm, ⟨9, _⟩ => ⟨S1024x1024, .f32⟩
  | .hbm, ⟨10, _⟩ => ⟨S1024, .f32⟩
  | .hbm, ⟨11, _⟩ => ⟨S256x4096, .f32⟩
  | .hbm, ⟨12, _⟩ => ⟨S4096, .f32⟩
  | .hbm, ⟨13, _⟩ => ⟨S8192x4096, .f32⟩
  | .hbm, ⟨14, _⟩ => ⟨S1x4096, .f32⟩
  | .hbm, ⟨15, _⟩ => ⟨S8192x4096, .f32⟩
  | .hbm, ⟨16, _⟩ => ⟨S8192x4096, .f32⟩
  | .hbm, ⟨17, _⟩ => ⟨S8192x4096, .f32⟩
  | .hbm, ⟨18, _⟩ => ⟨S1x4096, .f32⟩
  | .hbm, ⟨19, _⟩ => ⟨S8192x4096, .f32⟩
  | .hbm, ⟨20, _⟩ => ⟨S8192x4096, .f32⟩
  | .hbm, ⟨21, _⟩ => ⟨S8192x4096, .f32⟩
  | .hbm, ⟨22, _⟩ => ⟨S8192x4096, .f32⟩
  | .hbm, ⟨23, _⟩ => ⟨S1x4096, .f32⟩
  | .hbm, ⟨24, _⟩ => ⟨S8192x4096, .f32⟩
  | .hbm, ⟨25, _⟩ => ⟨S8192x4096, .f32⟩
  | .hbm, ⟨26, _⟩ => ⟨S8192x4096, .f32⟩
  | .hbm, ⟨27, _⟩ => ⟨S8192x1024, .f32⟩
  | .hbm, ⟨28, _⟩ => ⟨S1x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S_, .f32⟩
  | .hbm, ⟨63, _⟩ => ⟨S8192x1024, .f32⟩
  | .hbm, ⟨64, _⟩ => ⟨S8192x1024, .f32⟩
  | .hbm, ⟨65, _⟩ => ⟨S_, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst : Ref sig .tc := ⟨.hbm, 34, rfl⟩
abbrev main_v21 : Ref sig .tc := ⟨.hbm, 35, rfl⟩
abbrev main_v22 : Ref sig .tc := ⟨.hbm, 36, rfl⟩
abbrev main_cst_0 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_1 : Ref sig .tc := ⟨.hbm, 43, rfl⟩
abbrev main_v28 : Ref sig .tc := ⟨.hbm, 44, rfl⟩
abbrev main_v29 : Ref sig .tc := ⟨.hbm, 45, rfl⟩
abbrev main_cst_2 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_3 : Ref sig .tc := ⟨.hbm, 52, rfl⟩
abbrev main_v35 : Ref sig .tc := ⟨.hbm, 53, rfl⟩
abbrev main_v36 : Ref sig .tc := ⟨.hbm, 54, rfl⟩
abbrev main_cst_4 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_5 : Ref sig .tc := ⟨.hbm, 62, rfl⟩
abbrev main_v43 : Ref sig .tc := ⟨.hbm, 63, rfl⟩
abbrev main_v44 : Ref sig .tc := ⟨.hbm, 64, rfl⟩
abbrev main_cst_6 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  slices_S8192x4096_S8192x1024_0_0 : S8192x4096.Slices ![0, 0] S8192x1024
  bcast_S_S8192x1024 : S_.BroadcastsInDim S8192x1024 (![] : Fin 0 → Fin S8192x1024.rank)
  slices_S8192x4096_S8192x1024_0_1024 : S8192x4096.Slices ![0, 1024] S8192x1024
  slices_S8192x4096_S8192x1024_0_2048 : S8192x4096.Slices ![0, 2048] S8192x1024
  slices_S8192x4096_S8192x1024_0_3072 : S8192x4096.Slices ![0, 3072] S8192x1024
  dot_S8192x1024_S1024x4096_S8192x4096_1_0_0_1_n_n_wf : DotDims.WF S8192x1024 S1024x4096 S8192x4096 [1] [0] [0] [1] [] []
  dot_S8192x256_S256x4096_S8192x4096_1_0_0_1_n_n_wf : DotDims.WF S8192x256 S256x4096 S8192x4096 [1] [0] [0] [1] [] []
  dot_S8192x1024_S1024x1024_S8192x1024_1_0_0_1_n_n_wf : DotDims.WF S8192x1024 S1024x1024 S8192x1024 [1] [0] [0] [1] [] []

variable [Facts₀]

def dot_S8192x1024_S1024x4096_S8192x4096_1_0_0_1_n_n : DotDims S8192x1024 S1024x4096 S8192x4096 where
  lhsContracting := [1]
  rhsContracting := [0]
  lhsNonContracting := [0]
  rhsNonContracting := [1]
  lhsBatch := []
  rhsBatch := []
  wf := dot_S8192x1024_S1024x4096_S8192x4096_1_0_0_1_n_n_wf
def dot_S8192x256_S256x4096_S8192x4096_1_0_0_1_n_n : DotDims S8192x256 S256x4096 S8192x4096 where
  lhsContracting := [1]
  rhsContracting := [0]
  lhsNonContracting := [0]
  rhsNonContracting := [1]
  lhsBatch := []
  rhsBatch := []
  wf := dot_S8192x256_S256x4096_S8192x4096_1_0_0_1_n_n_wf
def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf

class Facts : Prop extends Facts₀ where

variable [Facts]
-- ==== Proof.Spec.lean ====
/-
  The gated recurrent cell as a function of its thirteen argument arrays, entry by entry, over the extended reals.

  For a batch row `r` and a column `J` of the four stacked gates, the pre-activation is the sum of three affine maps,
  `(x·Ww + Wb) + (h·Uw + Ub) + (s·Sw + Sb)` at `(r, J)`; the hybrid gate's is `z·Vw + Vb` at `(r, j)`. With `σ` the logistic
  function, the new cell state at `(r, j)` is
      σ(pre r j) · c r j + σ(pre r (j + 1024)) · tanh (pre r (j + 3072)) + σ(hyb r j) · c r j
  and the new hidden state is `tanh` of it times `σ(pre r (j + 2048))`.

  A second spelling of the pre-activation adds the three matrix products first and the three bias rows afterwards; the
  two agree because addition of extended reals is commutative and associative (no finiteness is needed).
-/
import Idealize.ShloMosaic.PureOps.Ideal
import Idealize.ShloMosaic.PureOps.Ideal.Laws
import Idealize.ShloMosaic.Lib.ValueIdx

noncomputable section

namespace Cert.Cell

open Idealize.ShloMosaic Idealize.ShloMosaic.ValueIdx

/-- A matrix of extended reals with `a` rows and `b` columns. -/
abbrev Mat (a b : Nat) : Type := (⟨2, ![a, b]⟩ : Shape).Idx → EReal
/-- A row of `b` extended reals. -/
abbrev Row (b : Nat) : Type := (⟨1, ![b]⟩ : Shape).Idx → EReal

/-- Entry `(r, j)` of the matrix product `X · W`. -/
def dot {a k b : Nat} (X : Mat a k) (W : Mat k b) (r : Fin a) (j : Fin b) : EReal :=
  ∑ q : Fin k, X (ix2 r q) * W (ix2 q j)

/-- The cell's arguments: the input `x`, the previous cell, hidden and hybrid states `c`, `h`, `z`, the speaker features `s`,
    and the four affine maps' weights and biases. -/
structure Args where
  x : Mat 8192 1024
  c : Mat 8192 1024
  h : Mat 8192 1024
  z : Mat 8192 1024
  s : Mat 8192 256
  Ww : Mat 1024 4096
  Wb : Row 4096
  Uw : Mat 1024 4096
  Ub : Row 4096
  Vw : Mat 1024 1024
  Vb : Row 1024
  Sw : Mat 256 4096
  Sb : Row 4096

/-- Column `j` of the gate that starts at column `o` of the stacked pre-activations. -/
def col (o : Nat) (ho : o + 1024 ≤ 4096) (j : Fin 1024) : Fin 4096 := ⟨j.val + o, by have := j.isLt; omega⟩

/-- The stacked gates' pre-activation at `(r, J)`: three affine maps, each with its own bias, added. -/
def pre (A : Args) (r : Fin 8192) (J : Fin 4096) : EReal :=
  ((dot A.x A.Ww r J + A.Wb (ix1 J)) + (dot A.h A.Uw r J + A.Ub (ix1 J))) + (dot A.s A.Sw r J + A.Sb (ix1 J))

/-- The same with the three products added first and the three biases added to one another before they join. -/
def preSplit (A : Args) (r : Fin 8192) (J : Fin 4096) : EReal :=
  ((dot A.x A.Ww r J + dot A.h A.Uw r J) + dot A.s A.Sw r J) + ((A.Wb (ix1 J) + A.Ub (ix1 J)) + A.Sb (ix1 J))

/-- Regrouping a sum of six extended reals: commutativity and associativity only. -/
theorem preSplit_eq (A : Args) (r : Fin 8192) (J : Fin 4096) : preSplit A r J = pre A r J := by
  unfold preSplit pre
  rw [add_add_add_comm (dot A.x A.Ww r J + dot A.h A.Uw r J) (dot A.s A.Sw r J) (A.Wb (ix1 J) + A.Ub (ix1 J)) (A.Sb (ix1 J)),
    add_add_add_comm (dot A.x A.Ww r J) (dot A.h A.Uw r J) (A.Wb (ix1 J)) (A.Ub (ix1 J))]

/-- The hybrid gate's pre-activation at `(r, j)`. -/
def hyb (A : Args) (r : Fin 8192) (j : Fin 1024) : EReal := dot A.z A.Vw r j + A.Vb (ix1 j)

/-- The new cell state at `(r, j)`. -/
def cell (A : Args) (r : Fin 8192) (j : Fin 1024) : EReal :=
  (Ideal.logistic (pre A r (col 0 (by omega) j)) * A.c (ix2 r j)
      + Ideal.logistic (pre A r (col 1024 (by omega) j)) * Ideal.tanh (pre A r (col 3072 (by omega) j)))
    + Ideal.logistic (hyb A r j) * A.c (ix2 r j)

/-- The new hidden state at `(r, j)`. -/
def hid (A : Args) (r : Fin 8192) (j : Fin 1024) : EReal :=
  Ideal.tanh (cell A r j) * Ideal.logistic (pre A r (col 2048 (by omega) j))

/-- The new cell state as an array. -/
def cellArr (A : Args) : Mat 8192 1024 := fun i => cell A (i 0) (i 1)

/-- The new hidden state as an array. -/
def hidArr (A : Args) : Mat 8192 1024 := fun i => hid A (i 0) (i 1)

/-- The single-precision word of the number one denotes the extended real `1`. -/
theorem one_word : Ideal.ofBits .f32 0x3F800000#32 = 1 := by
  simp [Ideal.ofBits, Ideal.ieee, -EReal.coe_mul]; norm_num

/-- The logistic function spelled with a quotient, as a host program expands it. -/
theorem logistic_eq (v : EReal) : Ideal.div 1 (1 + Ideal.exp (-v)) = Ideal.logistic v := rfl

end Cert.Cell

end
-- ==== Proof.Payload.lean ====
/-
  The two values the kernel body stores, read at one entry `(p, j)` of the 128-row block.

  The body multiplies three row blocks (of the input, the previous hidden state and the speaker features) by their
  weight matrices, adds the three products, and adds the three bias rows, themselves added first, broadcast down the
  rows: the stacked pre-activation at `(p, J)` is a sum of three inner products and three biases. A matrix product into a
  zero accumulator, read at an entry over the extended reals, is the sum over the contracted coordinate of the products of
  the operands' entries; narrowing a block to half precision changes nothing there. The four gates are column ranges
  of the stacked pre-activation starting at 0, 1024, 2048 and 3072; the fifth, hybrid gate has a product and a bias of its own.
-/
import proofs.«102356_j20504173871325_1_alg».proof.Proof.Gen.KernelIdeal.Skeleton
import proofs.«102356_j20504173871325_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.TcCoe Idealize.ShloMosaic.ValueIdx
open Cert.Cell (col)

/-! ## The three matrix products at an entry -/

/-! A 128 × 1024 block times a 1024 × 4096 matrix. -/

theorem lhsW_0 (i : S128x4096.Idx) (q : dot_S128x1024_S1024x4096_S128x4096_1_0_0_1_n_n.contr.Idx) :
    (dot_S128x1024_S1024x4096_S128x4096_1_0_0_1_n_n.lhsIdx i q 0).val = (i 0).val := by
  unfold DotDims.lhsIdx
  rw [dif_neg (show ¬(0 : Fin S128x1024.rank) ∈ dot_S128x1024_S1024x4096_S128x4096_1_0_0_1_n_n.lhsBatch by decide), dif_pos (show (0 : Fin S128x1024.rank) ∈ dot_S128x1024_S1024x4096_S128x4096_1_0_0_1_n_n.lhsNonContracting by decide)]
  rfl
theorem lhsW_1 (i : S128x4096.Idx) (q : dot_S128x1024_S1024x4096_S128x4096_1_0_0_1_n_n.contr.Idx) :
    (dot_S128x1024_S1024x4096_S128x4096_1_0_0_1_n_n.lhsIdx i q 1).val = (q ⟨0, by decide⟩).val :=
  dot_S128x1024_S1024x4096_S128x4096_1_0_0_1_n_n.lhsIdx_val_of_single rfl i q
theorem rhsW_0 (i : S128x4096.Idx) (q : dot_S128x1024_S1024x4096_S128x4096_1_0_0_1_n_n.contr.Idx) :
    (dot_S128x1024_S1024x4096_S128x4096_1_0_0_1_n_n.rhsIdx i q 0).val = (q ⟨0, by decide⟩).val :=
  dot_S128x1024_S1024x4096_S128x4096_1_0_0_1_n_n.rhsIdx_val_of_single rfl i q
theorem rhsW_1 (i : S128x4096.Idx) (q : dot_S128x1024_S1024x4096_S128x4096_1_0_0_1_n_n.contr.Idx) :
    (dot_S128x1024_S1024x4096_S128x4096_1_0_0_1_n_n.rhsIdx i q 1).val = (i 1).val := by
  unfold DotDims.rhsIdx
  rw [dif_neg (show ¬(1 : Fin S1024x4096.rank) ∈ dot_S128x1024_S1024x4096_S128x4096_1_0_0_1_n_n.rhsBatch by decide), dif_pos (show (1 : Fin S1024x4096.rank) ∈ dot_S128x1024_S1024x4096_S128x4096_1_0_0_1_n_n.rhsNonContracting by decide)]
  rfl

/-- Entry `(p, J)` of the product of a 128 × 1024 block and a 1024 × 4096 matrix. -/
theorem mulW_apply (a : FVec Ideal S128x1024 .bf16) (w : FVec Ideal S1024x4096 .bf16) (p : Fin 128) (J : Fin 4096) :
    matmul dot_S128x1024_S1024x4096_S128x4096_1_0_0_1_n_n none a w (constant (F := Ideal) S128x4096 .f32 0x00000000#32) (ix2 p J)
      = ∑ k : Fin 1024, a (ix2 p k) * w (ix2 k J) := by
  show FloatOps.matmul dot_S128x1024_S1024x4096_S128x4096_1_0_0_1_n_n none a w (constant (F := Ideal) S128x4096 .f32 0x00000000#32) (ix2 p J) = _
  rw [Ideal.matmul_constant_zero_apply, ← Equiv.sum_comp (contrEquiv1 dot_S128x1024_S1024x4096_S128x4096_1_0_0_1_n_n 1024 rfl rfl).symm]
  refine Finset.sum_congr rfl fun k _ => ?_
  have hk := contrEquiv1_symm_val dot_S128x1024_S1024x4096_S128x4096_1_0_0_1_n_n 1024 rfl rfl k
  have el : dot_S128x1024_S1024x4096_S128x4096_1_0_0_1_n_n.lhsIdx (ix2 p J) ((contrEquiv1 dot_S128x1024_S1024x4096_S128x4096_1_0_0_1_n_n 1024 rfl rfl).symm k) = ix2 p k := funext fun ax => Fin.ext (by
    match ax with
    | ⟨0, _⟩ => exact lhsW_0 _ _
    | ⟨1, _⟩ => exact (lhsW_1 _ _).trans hk)
  have er : dot_S128x1024_S1024x4096_S128x4096_1_0_0_1_n_n.rhsIdx (ix2 p J) ((contrEquiv1 dot_S128x1024_S1024x4096_S128x4096_1_0_0_1_n_n 1024 rfl rfl).symm k) = ix2 k J := funext fun ax => Fin.ext (by
    match ax with
    | ⟨0, _⟩ => exact (rhsW_0 _ _).trans hk
    | ⟨1, _⟩ => exact rhsW_1 _ _)
  rw [el, er]

/-! A 128 × 256 block times a 256 × 4096 matrix. -/

theorem lhsS_0 (i : S128x4096.Idx) (q : dot_S128x256_S256x4096_S128x4096_1_0_0_1_n_n.contr.Idx) :
    (dot_S128x256_S256x4096_S128x4096_1_0_0_1_n_n.lhsIdx i q 0).val = (i 0).val := by
  unfold DotDims.lhsIdx
  rw [dif_neg (show ¬(0 : Fin S128x256.rank) ∈ dot_S128x256_S256x4096_S128x4096_1_0_0_1_n_n.lhsBatch by decide), dif_pos (show (0 : Fin S128x256.rank) ∈ dot_S128x256_S256x4096_S128x4096_1_0_0_1_n_n.lhsNonContracting by decide)]
  rfl
theorem lhsS_1 (i : S128x4096.Idx) (q : dot_S128x256_S256x4096_S128x4096_1_0_0_1_n_n.contr.Idx) :
    (dot_S128x256_S256x4096_S128x4096_1_0_0_1_n_n.lhsIdx i q 1).val = (q ⟨0, by decide⟩).val :=
  dot_S128x256_S256x4096_S128x4096_1_0_0_1_n_n.lhsIdx_val_of_single rfl i q
theorem rhsS_0 (i : S128x4096.Idx) (q : dot_S128x256_S256x4096_S128x4096_1_0_0_1_n_n.contr.Idx) :
    (dot_S128x256_S256x4096_S128x4096_1_0_0_1_n_n.rhsIdx i q 0).val = (q ⟨0, by decide⟩).val :=
  dot_S128x256_S256x4096_S128x4096_1_0_0_1_n_n.rhsIdx_val_of_single rfl i q
theorem rhsS_1 (i : S128x4096.Idx) (q : dot_S128x256_S256x4096_S128x4096_1_0_0_1_n_n.contr.Idx) :
    (dot_S128x256_S256x4096_S128x4096_1_0_0_1_n_n.rhsIdx i q 1).val = (i 1).val := by
  unfold DotDims.rhsIdx
  rw [dif_neg (show ¬(1 : Fin S256x4096.rank) ∈ dot_S128x256_S256x4096_S128x4096_1_0_0_1_n_n.rhsBatch by decide), dif_pos (show (1 : Fin S256x4096.rank) ∈ dot_S128x256_S256x4096_S128x4096_1_0_0_1_n_n.rhsNonContracting by decide)]
  rfl

/-- Entry `(p, J)` of the product of a 128 × 256 block and a 256 × 4096 matrix. -/
theorem mulS_apply (a : FVec Ideal S128x256 .bf16) (w : FVec Ideal S256x4096 .bf16) (p : Fin 128) (J : Fin 4096) :
    matmul dot_S128x256_S256x4096_S128x4096_1_0_0_1_n_n none a w (constant (F := Ideal) S128x4096 .f32 0x00000000#32) (ix2 p J)
      = ∑ k : Fin 256, a (ix2 p k) * w (ix2 k J) := by
  show FloatOps.matmul dot_S128x256_S256x4096_S128x4096_1_0_0_1_n_n none a w (constant (F := Ideal) S128x4096 .f32 0x00000000#32) (ix2 p J) = _
  rw [Ideal.matmul_constant_zero_apply, ← Equiv.sum_comp (contrEquiv1 dot_S128x256_S256x4096_S128x4096_1_0_0_1_n_n 256 rfl rfl).symm]
  refine Finset.sum_congr rfl fun k _ => ?_
  have hk := contrEquiv1_symm_val dot_S128x256_S256x4096_S128x4096_1_0_0_1_n_n 256 rfl rfl k
  have el : dot_S128x256_S256x4096_S128x4096_1_0_0_1_n_n.lhsIdx (ix2 p J) ((contrEquiv1 dot_S128x256_S256x4096_S128x4096_1_0_0_1_n_n 256 rfl rfl).symm k) = ix2 p k := funext fun ax => Fin.ext (by
    match ax with
    | ⟨0, _⟩ => exact lhsS_0 _ _
    | ⟨1, _⟩ => exact (lhsS_1 _ _).trans hk)
  have er : dot_S128x256_S256x4096_S128x4096_1_0_0_1_n_n.rhsIdx (ix2 p J) ((contrEquiv1 dot_S128x256_S256x4096_S128x4096_1_0_0_1_n_n 256 rfl rfl).symm k) = ix2 k J := funext fun ax => Fin.ext (by
    match ax with
    | ⟨0, _⟩ => exact (rhsS_0 _ _).trans hk
    | ⟨1, _⟩ => exact rhsS_1 _ _)
  rw [el, er]

/-! A 128 × 1024 block times a 1024 × 1024 matrix. -/

theorem lhsV_0 (i : S128x1024.Idx) (q : dot_S128x1024_S1024x1024_S128x1024_1_0_0_1_n_n.contr.Idx) :
    (dot_S128x1024_S1024x1024_S128x1024_1_0_0_1_n_n.lhsIdx i q 0).val = (i 0).val := by
  unfold DotDims.lhsIdx
  rw [dif_neg (show ¬(0 : Fin S128x1024.rank) ∈ dot_S128x1024_S1024x1024_S128x1024_1_0_0_1_n_n.lhsBatch by decide), dif_pos (show (0 : Fin S128x1024.rank) ∈ dot_S128x1024_S1024x1024_S128x1024_1_0_0_1_n_n.lhsNonContracting by decide)]
  rfl
theorem lhsV_1 (i : S128x1024.Idx) (q : dot_S128x1024_S1024x1024_S128x1024_1_0_0_1_n_n.contr.Idx) :
    (dot_S128x1024_S1024x1024_S128x1024_1_0_0_1_n_n.lhsIdx i q 1).val = (q ⟨0, by decide⟩).val :=
  dot_S128x1024_S1024x1024_S128x1024_1_0_0_1_n_n.lhsIdx_val_of_single rfl i q
theorem rhsV_0 (i : S128x1024.Idx) (q : dot_S128x1024_S1024x1024_S128x1024_1_0_0_1_n_n.contr.Idx) :
    (dot_S128x1024_S1024x1024_S128x1024_1_0_0_1_n_n.rhsIdx i q 0).val = (q ⟨0, by decide⟩).val :=
  dot_S128x1024_S1024x1024_S128x1024_1_0_0_1_n_n.rhsIdx_val_of_single rfl i q
theorem rhsV_1 (i : S128x1024.Idx) (q : dot_S128x1024_S1024x1024_S128x1024_1_0_0_1_n_n.contr.Idx) :
    (dot_S128x1024_S1024x1024_S128x1024_1_0_0_1_n_n.rhsIdx i q 1).val = (i 1).val := by
  unfold DotDims.rhsIdx
  rw [dif_neg (show ¬(1 : Fin S1024x1024.rank) ∈ dot_S128x1024_S1024x1024_S128x1024_1_0_0_1_n_n.rhsBatch by decide), dif_pos (show (1 : Fin S1024x1024.rank) ∈ dot_S128x1024_S1024x1024_S128x1024_1_0_0_1_n_n.rhsNonContracting by decide)]
  rfl

/-- Entry `(p, j)` of the product of a 128 × 1024 block and a 1024 × 1024 matrix. -/
theorem mulV_apply (a : FVec Ideal S128x1024 .bf16) (w : FVec Ideal S1024x1024 .bf16) (p : Fin 128) (j : Fin 1024) :
    matmul dot_S128x1024_S1024x1024_S128x1024_1_0_0_1_n_n none a w (constant (F := Ideal) S128x1024 .f32 0x00000000#32) (ix2 p j)
      = ∑ k : Fin 1024, a (ix2 p k) * w (ix2 k j) := by
  show FloatOps.matmul dot_S128x1024_S1024x1024_S128x1024_1_0_0_1_n_n none a w (constant (F := Ideal) S128x1024 .f32 0x00000000#32) (ix2 p j) = _
  rw [Ideal.matmul_constant_zero_apply, ← Equiv.sum_comp (contrEquiv1 dot_S128x1024_S1024x1024_S128x1024_1_0_0_1_n_n 1024 rfl rfl).symm]
  refine Finset.sum_congr rfl fun k _ => ?_
  have hk := contrEquiv1_symm_val dot_S128x1024_S1024x1024_S128x1024_1_0_0_1_n_n 1024 rfl rfl k
  have el : dot_S128x1024_S1024x1024_S128x1024_1_0_0_1_n_n.lhsIdx (ix2 p j) ((contrEquiv1 dot_S128x1024_S1024x1024_S128x1024_1_0_0_1_n_n 1024 rfl rfl).symm k) = ix2 p k := funext fun ax => Fin.ext (by
    match ax with
    | ⟨0, _⟩ => exact lhsV_0 _ _
    | ⟨1, _⟩ => exact (lhsV_1 _ _).trans hk)
  have er : dot_S128x1024_S1024x1024_S128x1024_1_0_0_1_n_n.rhsIdx (ix2 p j) ((contrEquiv1 dot_S128x1024_S1024x1024_S128x1024_1_0_0_1_n_n 1024 rfl rfl).symm k) = ix2 k j := funext fun ax => Fin.ext (by
    match ax with
    | ⟨0, _⟩ => exact (rhsV_0 _ _).trans hk
    | ⟨1, _⟩ => exact rhsV_1 _ _)
  rw [el, er]

/-! ## The stacked pre-activation at an entry -/

/-- The body's stacked pre-activation, as its tree of vector operations (the casts of a shape to itself dropped). -/
theorem stacked_tree (x0 x2 : Vec Ideal S128x1024 .f32) (x6 : Vec Ideal S128x256 .f32)
    (w9 w12 : FVec Ideal S1024x4096 .bf16) (w16 : FVec Ideal S256x4096 .bf16) (b20 b22 b25 : Vec Ideal S1x4096 .f32) (i : S128x4096.Idx) :
    k0_pay4 (F := Ideal) x0 x2 x6 w9 w12 w16 b20 b22 b25 i
      = ((matmul dot_S128x1024_S1024x4096_S128x4096_1_0_0_1_n_n none (truncf .bf16 x0 bitsLt_bf16_f32) w9 (constant (F := Ideal) S128x4096 .f32 0x00000000#32) i
            + matmul dot_S128x1024_S1024x4096_S128x4096_1_0_0_1_n_n none (truncf .bf16 x2 bitsLt_bf16_f32) w12 (constant (F := Ideal) S128x4096 .f32 0x00000000#32) i)
          + matmul dot_S128x256_S256x4096_S128x4096_1_0_0_1_n_n none (truncf .bf16 x6 bitsLt_bf16_f32) w16 (constant (F := Ideal) S128x4096 .f32 0x00000000#32) i)
        + broadcastTo S128x4096 (addf (addf b20 b22) b25) broadcasts_S1x4096_S128x4096 i := by
  unfold k0_pay4
  simp only [shapeCast_self]
  rfl

/-- The stacked pre-activation at `(p, J)`: three inner products, then the three biases at column `J`. -/
theorem stacked_apply (x0 x2 : Vec Ideal S128x1024 .f32) (x6 : Vec Ideal S128x256 .f32)
    (w9 w12 : FVec Ideal S1024x4096 .bf16) (w16 : FVec Ideal S256x4096 .bf16) (b20 b22 b25 : Vec Ideal S1x4096 .f32)
    (p : Fin 128) (J : Fin 4096) :
    k0_pay4 (F := Ideal) x0 x2 x6 w9 w12 w16 b20 b22 b25 (ix2 p J)
      = ((∑ k : Fin 1024, x0 (ix2 p k) * w9 (ix2 k J) + ∑ k : Fin 1024, x2 (ix2 p k) * w12 (ix2 k J))
          + ∑ k : Fin 256, x6 (ix2 p k) * w16 (ix2 k J))
        + ((b20 (ix2 (0 : Fin 1) J) + b22 (ix2 (0 : Fin 1) J)) + b25 (ix2 (0 : Fin 1) J)) := by
  rw [stacked_tree, mulW_apply, mulW_apply, mulS_apply, broadcastTo_1b_ab_apply]
  rfl

/-! ## The two stored values at an entry -/

/-- The new cell state's block, as its tree of vector operations read at an index. -/
theorem cell_tree (z : FVec Ideal S128x1024 .bf16) (c : Vec Ideal S128x1024 .f32) (g : FVec Ideal S128x4096 .f32)
    (vw : FVec Ideal S1024x1024 .bf16) (vb : Vec Ideal S1x1024 .f32) (i : S128x1024.Idx) :
    k0_pay1 (F := Ideal) z c g vw vb i
      = (Ideal.logistic (extractStridedSlice S128x1024 ![0, 0] g slices_S128x4096_o0_0_S128x1024 i) * c i
          + Ideal.logistic (extractStridedSlice S128x1024 ![0, 1024] g slices_S128x4096_o0_1024_S128x1024 i)
            * Ideal.tanh (extractStridedSlice S128x1024 ![0, 3072] g slices_S128x4096_o0_3072_S128x1024 i))
        + Ideal.logistic (matmul dot_S128x1024_S1024x1024_S128x1024_1_0_0_1_n_n none z vw (constant (F := Ideal) S128x1024 .f32 0x00000000#32) i
            + broadcastTo S128x1024 vb broadcasts_S1x1024_S128x1024 i) * c i := by
  unfold k0_pay1
  simp only [shapeCast_self]
  rfl

/-- The new cell state at `(p, j)` of the block, from the stacked pre-activation `g`, the previous cell state `c`, the hybrid
    state `z` and the hybrid gate's weights and bias. -/
theorem cell_apply (z : FVec Ideal S128x1024 .bf16) (c : Vec Ideal S128x1024 .f32) (g : FVec Ideal S128x4096 .f32)
    (vw : FVec Ideal S1024x1024 .bf16) (vb : Vec Ideal S1x1024 .f32) (p : Fin 128) (j : Fin 1024) :
    k0_pay1 (F := Ideal) z c g vw vb (ix2 p j)
      = (Ideal.logistic (g (ix2 p (col 0 (by omega) j))) * c (ix2 p j)
          + Ideal.logistic (g (ix2 p (col 1024 (by omega) j))) * Ideal.tanh (g (ix2 p (col 3072 (by omega) j))))
        + Ideal.logistic ((∑ k : Fin 1024, z (ix2 p k) * vw (ix2 k j)) + vb (ix2 (0 : Fin 1) j)) * c (ix2 p j) := by
  rw [cell_tree,
    slice2_axis1_apply 0 g slices_S128x4096_o0_0_S128x1024 p j (col 0 (by omega) j) (Nat.add_comm _ _),
    slice2_axis1_apply 1024 g slices_S128x4096_o0_1024_S128x1024 p j (col 1024 (by omega) j) (Nat.add_comm _ _),
    slice2_axis1_apply 3072 g slices_S128x4096_o0_3072_S128x1024 p j (col 3072 (by omega) j) (Nat.add_comm _ _),
    mulV_apply, broadcastTo_1b_ab_apply]

/-- The new hidden state's block, as its tree of vector operations read at an index. -/
theorem hid_tree (z : FVec Ideal S128x1024 .bf16) (c : Vec Ideal S128x1024 .f32) (g : FVec Ideal S128x4096 .f32)
    (vw : FVec Ideal S1024x1024 .bf16) (vb : Vec Ideal S1x1024 .f32) (i : S128x1024.Idx) :
    k0_pay2 (F := Ideal) z c g vw vb i
      = Ideal.tanh (k0_pay1 (F := Ideal) z c g vw vb i)
        * Ideal.logistic (extractStridedSlice S128x1024 ![0, 2048] g slices_S128x4096_o0_2048_S128x1024 i) := rfl

/-- The new hidden state at `(p, j)` of the block: `tanh` of the new cell state there, times the output gate. -/
theorem hid_apply (z : FVec Ideal S128x1024 .bf16) (c : Vec Ideal S128x1024 .f32) (g : FVec Ideal S128x4096 .f32)
    (vw : FVec Ideal S1024x1024 .bf16) (vb : Vec Ideal S1x1024 .f32) (p : Fin 128) (j : Fin 1024) :
    k0_pay2 (F := Ideal) z c g vw vb (ix2 p j)
      = Ideal.tanh (k0_pay1 (F := Ideal) z c g vw vb (ix2 p j)) * Ideal.logistic (g (ix2 p (col 2048 (by omega) j))) := by
  rw [hid_tree,
    slice2_axis1_apply 2048 g slices_S128x4096_o0_2048_S128x1024 p j (col 2048 (by omega) j) (Nat.add_comm _ _)]

end Cert.KernelIdeal.Body

end
-- ==== Proof.Point.lean ====
/-
  One grid point's two stored blocks are the cell's two results on that point's rows.

  Stated for any vectors of the blocks' shapes: if row `p` of each of the five row blocks is row `rw p` of its array, and
  the weight matrices and bias rows are the arrays themselves, then at entry `(p, j)` the body's stacked pre-activation is
  `pre` at `(rw p, J)` — here the products are added before the biases, and the regrouping law of Spec.lean joins the two
  spellings —, its first stored value is the new cell state at `(rw p, j)`, and its second the new hidden state there.
-/
import proofs.«102356_j20504173871325_1_alg».proof.Proof.Payload

noncomputable section

namespace Cert.KernelIdeal.Body

open Cert.KernelIdeal Cert.KernelIdeal.Gen Idealize.ShloMosaic Idealize.ShloMosaic.TcCoe Idealize.ShloMosaic.ValueIdx
open Cert.Cell

variable (A : Args) (rw : Fin 128 → Fin 8192)
variable (xb hb : Vec Ideal S128x1024 .f32) (sb : Vec Ideal S128x256 .f32)
variable (ww uw : FVec Ideal S1024x4096 .bf16) (sw : FVec Ideal S256x4096 .bf16)
variable (wb ub sbias : Vec Ideal S1x4096 .f32)

/-- The block's stacked pre-activation at `(p, J)` is `pre` at row `rw p`. -/
theorem block_pre
    (hx : ∀ p k, xb (ix2 p k) = A.x (ix2 (rw p) k)) (hh : ∀ p k, hb (ix2 p k) = A.h (ix2 (rw p) k))
    (hs : ∀ p k, sb (ix2 p k) = A.s (ix2 (rw p) k))
    (hww : ∀ k J, ww (ix2 k J) = A.Ww (ix2 k J)) (huw : ∀ k J, uw (ix2 k J) = A.Uw (ix2 k J))
    (hsw : ∀ k J, sw (ix2 k J) = A.Sw (ix2 k J))
    (hwb : ∀ J, wb (ix2 (0 : Fin 1) J) = A.Wb (ix1 J)) (hub : ∀ J, ub (ix2 (0 : Fin 1) J) = A.Ub (ix1 J))
    (hsb : ∀ J, sbias (ix2 (0 : Fin 1) J) = A.Sb (ix1 J))
    (p : Fin 128) (J : Fin 4096) :
    k0_pay4 (F := Ideal) xb hb sb ww uw sw wb ub sbias (ix2 p J) = pre A (rw p) J := by
  rw [stacked_apply, ← preSplit_eq]
  unfold preSplit dot
  simp only [hx, hh, hs, hww, huw, hsw, hwb, hub, hsb]

variable (zb cb : Vec Ideal S128x1024 .f32) (vw : FVec Ideal S1024x1024 .bf16) (vb : Vec Ideal S1x1024 .f32)

/-- The first stored value at `(p, j)` is the new cell state at `(rw p, j)`. -/
theorem block_cell
    (hx : ∀ p k, xb (ix2 p k) = A.x (ix2 (rw p) k)) (hh : ∀ p k, hb (ix2 p k) = A.h (ix2 (rw p) k))
    (hs : ∀ p k, sb (ix2 p k) = A.s (ix2 (rw p) k))
    (hww : ∀ k J, ww (ix2 k J) = A.Ww (ix2 k J)) (huw : ∀ k J, uw (ix2 k J) = A.Uw (ix2 k J))
    (hsw : ∀ k J, sw (ix2 k J) = A.Sw (ix2 k J))
    (hwb : ∀ J, wb (ix2 (0 : Fin 1) J) = A.Wb (ix1 J)) (hub : ∀ J, ub (ix2 (0 : Fin 1) J) = A.Ub (ix1 J))
    (hsb : ∀ J, sbias (ix2 (0 : Fin 1) J) = A.Sb (ix1 J))
    (hz : ∀ p k, zb (ix2 p k) = A.z (ix2 (rw p) k)) (hc : ∀ p j, cb (ix2 p j) = A.c (ix2 (rw p) j))
    (hvw : ∀ k j, vw (ix2 k j) = A.Vw (ix2 k j)) (hvb : ∀ j, vb (ix2 (0 : Fin 1) j) = A.Vb (ix1 j))
    (p : Fin 128) (j : Fin 1024) :
    k0_pay1 (F := Ideal) (k0_pay3 zb) cb (k0_pay4 xb hb sb ww uw sw wb ub sbias) (k0_pay5 vw) vb (ix2 p j)
      = cell A (rw p) j := by
  have hv5 : k0_pay5 (F := Ideal) vw = vw := shapeCast_self vw _
  have hz3 : ∀ k, k0_pay3 (F := Ideal) zb (ix2 p k) = A.z (ix2 (rw p) k) := fun k => hz p k
  rw [cell_apply, hv5]
  simp only [block_pre A rw xb hb sb ww uw sw wb ub sbias hx hh hs hww huw hsw hwb hub hsb, hz3, hc, hvw, hvb]
  rfl

/-- The second stored value at `(p, j)` is the new hidden state at `(rw p, j)`. -/
theorem block_hid
    (hx : ∀ p k, xb (ix2 p k) = A.x (ix2 (rw p) k)) (hh : ∀ p k, hb (ix2 p k) = A.h (ix2 (rw p) k))
    (hs : ∀ p k, sb (ix2 p k) = A.s (ix2 (rw p) k))
    (hww : ∀ k J, ww (ix2 k J) = A.Ww (ix2 k J)) (huw : ∀ k J, uw (ix2 k J) = A.Uw (ix2 k J))
    (hsw : ∀ k J, sw (ix2 k J) = A.Sw (ix2 k J))
    (hwb : ∀ J, wb (ix2 (0 : Fin 1) J) = A.Wb (ix1 J)) (hub : ∀ J, ub (ix2 (0 : Fin 1) J) = A.Ub (ix1 J))
    (hsb : ∀ J, sbias (ix2 (0 : Fin 1) J) = A.Sb (ix1 J))
    (hz : ∀ p k, zb (ix2 p k) = A.z (ix2 (rw p) k)) (hc : ∀ p j, cb (ix2 p j) = A.c (ix2 (rw p) j))
    (hvw : ∀ k j, vw (ix2 k j) = A.Vw (ix2 k j)) (hvb : ∀ j, vb (ix2 (0 : Fin 1) j) = A.Vb (ix1 j))
    (p : Fin 128) (j : Fin 1024) :
    k0_pay2 (F := Ideal) (k0_pay3 zb) cb (k0_pay4 xb hb sb ww uw sw wb ub sbias) (k0_pay5 vw) vb (ix2 p j)
      = hid A (rw p) j := by
  rw [hid_apply,
    block_cell A rw xb hb sb ww uw sw wb ub sbias zb cb vw vb hx hh hs hww huw hsw hwb hub hsb hz hc hvw hvb p j,
    block_pre A rw xb hb sb ww uw sw wb ub sbias hx hh hs hww huw hsw hwb hub hsb]
  rfl

end Cert.KernelIdeal.Body

end
-- ==== Proof.Blocks.lean ====
/-
  From the grid's blocks to the two result arrays.

  The pallas_call walks 64 grid points; point `t` sees rows `128·t … 128·t + 127` of the five row-blocked arguments and
  the whole of the four weight matrices and four bias rows (each bias a vector reshaped to one row, each weight matrix
  narrowed to half precision before the call: over the extended reals, the matrix itself). By Point.lean what it writes
  back through each output window is rows `128·t …` of the new cell state, respectively the new hidden state; the 64
  row blocks tile the 8192 rows, so after the run the two output arrays ARE those two arrays.
-/
import proofs.«102356_j20504173871325_1_alg».proof.Proof.Gen.KernelIdeal.Value
import proofs.«102356_j20504173871325_1_alg».proof.Proof.Point
import Idealize.ShloMosaic.Lib.ValueLayout
import Idealize.ShloMosaic.Lib.StableHlo.Run

noncomputable section

namespace Cert.KernelIdeal.Blocks

open Cert.KernelIdeal Cert.KernelIdeal.Gen Idealize.ShloMosaic Idealize.ShloMosaic.TcCoe Idealize.SL.Sem Idealize.ShloMosaic.ValueIdx
open Idealize.ShloMosaic.Pipeline (Dat)
open Cert.Cell

variable (m : (ℓ : Loc nD τ sig) → Buf (Elt Ideal) ℓ) (ρ : Dev nD → PrngReg)

/-- The cell's arguments as core `c`'s launch memory holds them, in the order of the program's parameters. -/
def args (c : Dev nD) : Args where
  x := m ((c : Thread nD τ).loc main_arg0)
  c := m ((c : Thread nD τ).loc main_arg1)
  h := m ((c : Thread nD τ).loc main_arg2)
  z := m ((c : Thread nD τ).loc main_arg3)
  s := m ((c : Thread nD τ).loc main_arg4)
  Ww := m ((c : Thread nD τ).loc main_arg5)
  Wb := m ((c : Thread nD τ).loc main_arg6)
  Uw := m ((c : Thread nD τ).loc main_arg7)
  Ub := m ((c : Thread nD τ).loc main_arg8)
  Vw := m ((c : Thread nD τ).loc main_arg9)
  Vb := m ((c : Thread nD τ).loc main_arg10)
  Sw := m ((c : Thread nD τ).loc main_arg11)
  Sb := m ((c : Thread nD τ).loc main_arg12)

theorem point_lt (t : Fin cfg0.N) : t.val < 64 := by
  have h := t.isLt
  have hN : cfg0.N = 64 := N_0
  omega

/-- Row `p` of grid point `t`'s blocks is row `128·t + p` of the arrays. -/
def row (t : Fin cfg0.N) (p : Fin 128) : Fin 8192 := ⟨t.val * 128 + p.val, by have := point_lt t; have := p.isLt; omega⟩

/-- Two functions on a rank-2 index space agree when they agree at every pair of coordinates. -/
theorem ext_ix2 {n0 n1 : Nat} {α : Type} (f g : (⟨2, ![n0, n1]⟩ : Shape).Idx → α) (h : ∀ p j, f (ix2 p j) = g (ix2 p j)) : f = g :=
  funext fun y => by rw [eq_ix2 y]; exact h _ _

theorem zero_off : (![0, 0] : Fin 2 → Nat) = fun _ => 0 := funext fun a => by fin_cases a <;> rfl

/-! ## The index maps, decided over the 64 points: the row-blocked windows move with the point, the others stay -/

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = t.val ∧ win0_3.index t (1 : Fin 2) = 0 :=
  (by decide +kernel : ∀ t : Fin grid0.N, _)
theorem idx4 : ∀ t : Fin cfg0.N, win0_4.index t (0 : Fin 2) = t.val ∧ win0_4.index t (1 : Fin 2) = 0 :=
  (by decide +kernel : ∀ t : Fin grid0.N, _)
theorem idx13 : ∀ t : Fin cfg0.N, win0_13.index t (0 : Fin 2) = t.val ∧ win0_13.index t (1 : Fin 2) = 0 :=
  (by decide +kernel : ∀ t : Fin grid0.N, _)
theorem idx14 : ∀ t : Fin cfg0.N, win0_14.index t (0 : Fin 2) = t.val ∧ win0_14.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx10 : ∀ t : Fin cfg0.N, win0_10.index t (0 : Fin 2) = 0 ∧ win0_10.index t (1 : Fin 2) = 0 :=
  (by decide +kernel : ∀ t : Fin grid0.N, _)
theorem idx11 : ∀ t : Fin cfg0.N, win0_11.index t (0 : Fin 2) = 0 ∧ win0_11.index t (1 : Fin 2) = 0 :=
  (by decide +kernel : ∀ t : Fin grid0.N, _)
theorem idx12 : ∀ t : Fin cfg0.N, win0_12.index t (0 : Fin 2) = 0 ∧ win0_12.index t (1 : Fin 2) = 0 :=
  (by decide +kernel : ∀ t : Fin grid0.N, _)

/-! ## What the region finds in the arrays the host operations wrote -/

theorem V_v0 (c : Dev nD) : @Eq (S1024x4096.Idx → EReal) (V m c main_v0) (m ((c : Thread nD τ).loc main_arg5)) := by
  dsimp only [V, hostOps0]; after_results; rfl
theorem V_v1 (c : Dev nD) : @Eq (S1024x4096.Idx → EReal) (V m c main_v1) (m ((c : Thread nD τ).loc main_arg7)) := by
  dsimp only [V, hostOps0]; after_results; rfl
theorem V_v2 (c : Dev nD) : @Eq (S256x4096.Idx → EReal) (V m c main_v2) (m ((c : Thread nD τ).loc main_arg11)) := by
  dsimp only [V, hostOps0]; after_results; rfl
theorem V_v3 (c : Dev nD) : @Eq (S1024x1024.Idx → EReal) (V m c main_v3) (m ((c : Thread nD τ).loc main_arg9)) := by
  dsimp only [V, hostOps0]; after_results; rfl
theorem V_v4 (c : Dev nD) : (V m c main_v4 : Vec Ideal S1x4096 .f32)
    = shapeCast S1x4096 (m ((c : Thread nD τ).loc main_arg6) : Vec Ideal S4096 .f32) shapeCasts_S4096_S1x4096 := by
  dsimp only [V, hostOps0]; after_results; rfl
theorem V_v5 (c : Dev nD) : (V m c main_v5 : Vec Ideal S1x4096 .f32)
    = shapeCast S1x4096 (m ((c : Thread nD τ).loc main_arg8) : Vec Ideal S4096 .f32) shapeCasts_S4096_S1x4096 := by
  dsimp only [V, hostOps0]; after_results; rfl
theorem V_v6 (c : Dev nD) : (V m c main_v6 : Vec Ideal S1x4096 .f32)
    = shapeCast S1x4096 (m ((c : Thread nD τ).loc main_arg12) : Vec Ideal S4096 .f32) shapeCasts_S4096_S1x4096 := by
  dsimp only [V, hostOps0]; after_results; rfl
theorem V_v7 (c : Dev nD) : (V m c main_v7 : Vec Ideal S1x1024 .f32)
    = shapeCast S1x1024 (m ((c : Thread nD τ).loc main_arg10) : Vec Ideal S1024 .f32) shapeCasts_S1024_S1x1024 := by
  dsimp only [V, hostOps0]; after_results; rfl

/-! ## The input windows' blocks, entry by entry -/

/-- Row `p` of window 0's block at point `t` is row `row t p` of its array. -/
theorem x_blk (c : Dev nD) (t : Fin cfg0.N) (p : Fin 128) (k : Fin 1024) :
    (iblk m c 0 t : Vec Ideal S128x1024 .f32) (ix2 p k) = (args m c).x (ix2 (row t p) k) := by
  obtain ⟨e0, e1⟩ := idx0 t
  unfold iblk
  rw [View.read_apply]
  show V m c main_arg0 _ = m ((c : Thread nD τ).loc main_arg0) _
  rw [V_main_arg0]
  congr 1
  funext a; apply Fin.ext
  match a with
  | ⟨0, _⟩ => show win0_0.index t (0 : Fin 2) * 128 + 1 * p.val = t.val * 128 + p.val; omega
  | ⟨1, _⟩ => show win0_0.index t (1 : Fin 2) * 1024 + 1 * k.val = k.val; omega

/-- Row `p` of window 1's block at point `t` is row `row t p` of its array. -/
theorem h_blk (c : Dev nD) (t : Fin cfg0.N) (p : Fin 128) (k : Fin 1024) :
    (iblk m c 1 t : Vec Ideal S128x1024 .f32) (ix2 p k) = (args m c).h (ix2 (row t p) k) := by
  obtain ⟨e0, e1⟩ := idx1 t
  unfold iblk
  rw [View.read_apply]
  show V m c main_arg2 _ = m ((c : Thread nD τ).loc main_arg2) _
  rw [V_main_arg2]
  congr 1
  funext a; apply Fin.ext
  match a with
  | ⟨0, _⟩ => show win0_1.index t (0 : Fin 2) * 128 + 1 * p.val = t.val * 128 + p.val; omega
  | ⟨1, _⟩ => show win0_1.index t (1 : Fin 2) * 1024 + 1 * k.val = k.val; omega

/-- Row `p` of window 2's block at point `t` is row `row t p` of its array. -/
theorem z_blk (c : Dev nD) (t : Fin cfg0.N) (p : Fin 128) (k : Fin 1024) :
    (iblk m c 2 t : Vec Ideal S128x1024 .f32) (ix2 p k) = (args m c).z (ix2 (row t p) k) := by
  obtain ⟨e0, e1⟩ := idx2 t
  unfold iblk
  rw [View.read_apply]
  show V m c main_arg3 _ = m ((c : Thread nD τ).loc main_arg3) _
  rw [V_main_arg3]
  congr 1
  funext a; apply Fin.ext
  match a with
  | ⟨0, _⟩ => show win0_2.index t (0 : Fin 2) * 128 + 1 * p.val = t.val * 128 + p.val; omega
  | ⟨1, _⟩ => show win0_2.index t (1 : Fin 2) * 1024 + 1 * k.val = k.val; omega

/-- Row `p` of window 3's block at point `t` is row `row t p` of its array. -/
theorem s_blk (c : Dev nD) (t : Fin cfg0.N) (p : Fin 128) (k : Fin 256) :
    (iblk m c 3 t : Vec Ideal S128x256 .f32) (ix2 p k) = (args m c).s (ix2 (row t p) k) := by
  obtain ⟨e0, e1⟩ := idx3 t
  unfold iblk
  rw [View.read_apply]
  show V m c main_arg4 _ = m ((c : Thread nD τ).loc main_arg4) _
  rw [V_main_arg4]
  congr 1
  funext a; apply Fin.ext
  match a with
  | ⟨0, _⟩ => show win0_3.index t (0 : Fin 2) * 128 + 1 * p.val = t.val * 128 + p.val; omega
  | ⟨1, _⟩ => show win0_3.index t (1 : Fin 2) * 256 + 1 * k.val = k.val; omega

/-- Row `p` of window 4's block at point `t` is row `row t p` of its array. -/
theorem c_blk (c : Dev nD) (t : Fin cfg0.N) (p : Fin 128) (k : Fin 1024) :
    (iblk m c 4 t : Vec Ideal S128x1024 .f32) (ix2 p k) = (args m c).c (ix2 (row t p) k) := by
  obtain ⟨e0, e1⟩ := idx4 t
  unfold iblk
  rw [View.read_apply]
  show V m c main_arg1 _ = m ((c : Thread nD τ).loc main_arg1) _
  rw [V_main_arg1]
  congr 1
  funext a; apply Fin.ext
  match a with
  | ⟨0, _⟩ => show win0_4.index t (0 : Fin 2) * 128 + 1 * p.val = t.val * 128 + p.val; omega
  | ⟨1, _⟩ => show win0_4.index t (1 : Fin 2) * 1024 + 1 * k.val = k.val; omega

/-- Window 5 stages the whole weight matrix, narrowed: at the extended reals, the matrix itself. -/
theorem ww_blk (c : Dev nD) (t : Fin cfg0.N) (k : Fin 1024) (J : Fin 4096) :
    (iblk m c 5 t : FVec Ideal S1024x4096 .bf16) (ix2 k J) = (args m c).Ww (ix2 k J) := by
  obtain ⟨e0, e1⟩ := idx5 t
  unfold iblk
  rw [View.read_apply]
  show V m c main_v0 _ = m ((c : Thread nD τ).loc main_arg5) _
  rw [V_v0]
  show m ((c : Thread nD τ).loc main_arg5) _ = m ((c : Thread nD τ).loc main_arg5) _
  congr 1
  funext a; apply Fin.ext
  match a with
  | ⟨0, _⟩ => show win0_5.index t (0 : Fin 2) * 1024 + 1 * k.val = k.val; omega
  | ⟨1, _⟩ => show win0_5.index t (1 : Fin 2) * 4096 + 1 * J.val = J.val; omega

/-- Window 6 stages the whole weight matrix, narrowed: at the extended reals, the matrix itself. -/
theorem uw_blk (c : Dev nD) (t : Fin cfg0.N) (k : Fin 1024) (J : Fin 4096) :
    (iblk m c 6 t : FVec Ideal S1024x4096 .bf16) (ix2 k J) = (args m c).Uw (ix2 k J) := by
  obtain ⟨e0, e1⟩ := idx6 t
  unfold iblk
  rw [View.read_apply]
  show V m c main_v1 _ = m ((c : Thread nD τ).loc main_arg7) _
  rw [V_v1]
  show m ((c : Thread nD τ).loc main_arg7) _ = m ((c : Thread nD τ).loc main_arg7) _
  congr 1
  funext a; apply Fin.ext
  match a with
  | ⟨0, _⟩ => show win0_6.index t (0 : Fin 2) * 1024 + 1 * k.val = k.val; omega
  | ⟨1, _⟩ => show win0_6.index t (1 : Fin 2) * 4096 + 1 * J.val = J.val; omega

/-- Window 7 stages the whole weight matrix, narrowed: at the extended reals, the matrix itself. -/
theorem sw_blk (c : Dev nD) (t : Fin cfg0.N) (k : Fin 256) (J : Fin 4096) :
    (iblk m c 7 t : FVec Ideal S256x4096 .bf16) (ix2 k J) = (args m c).Sw (ix2 k J) := by
  obtain ⟨e0, e1⟩ := idx7 t
  unfold iblk
  rw [View.read_apply]
  show V m c main_v2 _ = m ((c : Thread nD τ).loc main_arg11) _
  rw [V_v2]
  show m ((c : Thread nD τ).loc main_arg11) _ = m ((c : Thread nD τ).loc main_arg11) _
  congr 1
  funext a; apply Fin.ext
  match a with
  | ⟨0, _⟩ => show win0_7.index t (0 : Fin 2) * 256 + 1 * k.val = k.val; omega
  | ⟨1, _⟩ => show win0_7.index t (1 : Fin 2) * 4096 + 1 * J.val = J.val; omega

/-- Window 8 stages the whole weight matrix, narrowed: at the extended reals, the matrix itself. -/
theorem vw_blk (c : Dev nD) (t : Fin cfg0.N) (k : Fin 1024) (J : Fin 1024) :
    (iblk m c 8 t : FVec Ideal S1024x1024 .bf16) (ix2 k J) = (args m c).Vw (ix2 k J) := by
  obtain ⟨e0, e1⟩ := idx8 t
  unfold iblk
  rw [View.read_apply]
  show V m c main_v3 _ = m ((c : Thread nD τ).loc main_arg9) _
  rw [V_v3]
  show m ((c : Thread nD τ).loc main_arg9) _ = m ((c : Thread nD τ).loc main_arg9) _
  congr 1
  funext a; apply Fin.ext
  match a with
  | ⟨0, _⟩ => show win0_8.index t (0 : Fin 2) * 1024 + 1 * k.val = k.val; omega
  | ⟨1, _⟩ => show win0_8.index t (1 : Fin 2) * 1024 + 1 * J.val = J.val; omega

/-- Window 9 stages the bias as one row: at `(0, J)` it reads the bias at `J`. -/
theorem wb_blk (c : Dev nD) (t : Fin cfg0.N) (J : Fin 4096) :
    (iblk m c 9 t : Vec Ideal S1x4096 .f32) (ix2 (0 : Fin 1) J) = (args m c).Wb (ix1 J) := by
  obtain ⟨e0, e1⟩ := idx9 t
  unfold iblk
  rw [View.read_apply]
  show V m c main_v4 _ = m ((c : Thread nD τ).loc main_arg6) _
  rw [V_v4]
  refine Eq.trans ?_ (shapeCast_a_1a_apply (m ((c : Thread nD τ).loc main_arg6) : Vec Ideal S4096 .f32) shapeCasts_S4096_S1x4096 (0 : Fin 1) J)
  congr 1
  funext a; apply Fin.ext
  match a with
  | ⟨0, _⟩ => show win0_9.index t (0 : Fin 2) * 1 + 1 * 0 = 0; omega
  | ⟨1, _⟩ => show win0_9.index t (1 : Fin 2) * 4096 + 1 * J.val = J.val; omega

/-- Window 10 stages the bias as one row: at `(0, J)` it reads the bias at `J`. -/
theorem ub_blk (c : Dev nD) (t : Fin cfg0.N) (J : Fin 4096) :
    (iblk m c 10 t : Vec Ideal S1x4096 .f32) (ix2 (0 : Fin 1) J) = (args m c).Ub (ix1 J) := by
  obtain ⟨e0, e1⟩ := idx10 t
  unfold iblk
  rw [View.read_apply]
  show V m c main_v5 _ = m ((c : Thread nD τ).loc main_arg8) _
  rw [V_v5]
  refine Eq.trans ?_ (shapeCast_a_1a_apply (m ((c : Thread nD τ).loc main_arg8) : Vec Ideal S4096 .f32) shapeCasts_S4096_S1x4096 (0 : Fin 1) J)
  congr 1
  funext a; apply Fin.ext
  match a with
  | ⟨0, _⟩ => show win0_10.index t (0 : Fin 2) * 1 + 1 * 0 = 0; omega
  | ⟨1, _⟩ => show win0_10.index t (1 : Fin 2) * 4096 + 1 * J.val = J.val; omega

/-- Window 11 stages the bias as one row: at `(0, J)` it reads the bias at `J`. -/
theorem sb_blk (c : Dev nD) (t : Fin cfg0.N) (J : Fin 4096) :
    (iblk m c 11 t : Vec Ideal S1x4096 .f32) (ix2 (0 : Fin 1) J) = (args m c).Sb (ix1 J) := by
  obtain ⟨e0, e1⟩ := idx11 t
  unfold iblk
  rw [View.read_apply]
  show V m c main_v6 _ = m ((c : Thread nD τ).loc main_arg12) _
  rw [V_v6]
  refine Eq.trans ?_ (shapeCast_a_1a_apply (m ((c : Thread nD τ).loc main_arg12) : Vec Ideal S4096 .f32) shapeCasts_S4096_S1x4096 (0 : Fin 1) J)
  congr 1
  funext a; apply Fin.ext
  match a with
  | ⟨0, _⟩ => show win0_11.index t (0 : Fin 2) * 1 + 1 * 0 = 0; omega
  | ⟨1, _⟩ => show win0_11.index t (1 : Fin 2) * 4096 + 1 * J.val = J.val; omega

/-- Window 12 stages the bias as one row: at `(0, J)` it reads the bias at `J`. -/
theorem vb_blk (c : Dev nD) (t : Fin cfg0.N) (J : Fin 1024) :
    (iblk m c 12 t : Vec Ideal S1x1024 .f32) (ix2 (0 : Fin 1) J) = (args m c).Vb (ix1 J) := by
  obtain ⟨e0, e1⟩ := idx12 t
  unfold iblk
  rw [View.read_apply]
  show V m c main_v7 _ = m ((c : Thread nD τ).loc main_arg10) _
  rw [V_v7]
  refine Eq.trans ?_ (shapeCast_a_1a_apply (m ((c : Thread nD τ).loc main_arg10) : Vec Ideal S1024 .f32) shapeCasts_S1024_S1x1024 (0 : Fin 1) J)
  congr 1
  funext a; apply Fin.ext
  match a with
  | ⟨0, _⟩ => show win0_12.index t (0 : Fin 2) * 1 + 1 * 0 = 0; omega
  | ⟨1, _⟩ => show win0_12.index t (1 : Fin 2) * 1024 + 1 * J.val = J.val; omega

/-! ## What each point writes back -/

/-- Entry `(p, j)` of an output window's block at point `t` is entry `(row t p, j)` of its array. -/
theorem emb13 (t : Fin cfg0.N) (p : Fin 128) (j : Fin 1024) :
    ((cfg0.win 13).blk t).view.emb (ix2 p j) = (ix2 (row t p) j : S8192x1024.Idx) := by
  obtain ⟨e0, e1⟩ := idx13 t
  funext a; apply Fin.ext
  match a with
  | ⟨0, _⟩ => show win0_13.index t (0 : Fin 2) * 128 + 1 * p.val = t.val * 128 + p.val; omega
  | ⟨1, _⟩ => show win0_13.index t (1 : Fin 2) * 1024 + 1 * j.val = j.val; omega

theorem emb14 (t : Fin cfg0.N) (p : Fin 128) (j : Fin 1024) :
    ((cfg0.win 14).blk t).view.emb (ix2 p j) = (ix2 (row t p) j : S8192x1024.Idx) := by
  obtain ⟨e0, e1⟩ := idx14 t
  funext a; apply Fin.ext
  match a with
  | ⟨0, _⟩ => show win0_14.index t (0 : Fin 2) * 128 + 1 * p.val = t.val * 128 + p.val; omega
  | ⟨1, _⟩ => show win0_14.index t (1 : Fin 2) * 1024 + 1 * j.val = j.val; omega

/-- What point `t` writes back through output window 13 is block `t` of the new cell state. -/
theorem flushed13_eq (c : Dev nD) (t : Fin cfg0.N) :
    (dats m 0 c).flushed 13 t = ((cfg0.win 13).blk t).view.read (Elt Ideal) (cellArr (args m c)) := by
  rw [Value.flushed13]
  unfold out0_13
  rw [View.canon_unit_zero zero_off]
  simp only [View.ld_unit_zero (S := S128x1024) zero_off, View.ld_unit_zero (S := S128x256) zero_off,
    View.ld_unit_zero (S := S1024x4096) zero_off, View.ld_unit_zero (S := S256x4096) zero_off,
    View.ld_unit_zero (S := S1x4096) zero_off, View.ld_unit_zero (S := S1024x1024) zero_off,
    View.ld_unit_zero (S := S1x1024) zero_off]
  refine ext_ix2 (n0 := 128) (n1 := 1024) _ _ fun p j => ?_
  show k0_pay1 (F := Ideal) (k0_pay3 (iblk m c 2 t)) (iblk m c 4 t)
      (k0_pay4 (iblk m c 0 t) (iblk m c 1 t) (iblk m c 3 t) (iblk m c 5 t) (iblk m c 6 t) (iblk m c 7 t) (iblk m c 9 t) (iblk m c 10 t) (iblk m c 11 t))
      (k0_pay5 (iblk m c 8 t)) (iblk m c 12 t) (ix2 p j)
    = cellArr (args m c) (((cfg0.win 13).blk t).view.emb (ix2 p j))
  refine (Body.block_cell (args m c) (row t) (iblk m c 0 t) (iblk m c 1 t) (iblk m c 3 t) (iblk m c 5 t) (iblk m c 6 t) (iblk m c 7 t)
      (iblk m c 9 t) (iblk m c 10 t) (iblk m c 11 t) (iblk m c 2 t) (iblk m c 4 t) (iblk m c 8 t) (iblk m c 12 t)
      (x_blk m c t) (h_blk m c t) (s_blk m c t) (ww_blk m c t) (uw_blk m c t) (sw_blk m c t)
      (wb_blk m c t) (ub_blk m c t) (sb_blk m c t) (z_blk m c t) (c_blk m c t) (vw_blk m c t) (vb_blk m c t) p j).trans ?_
  rw [emb13]
  rfl

/-- What point `t` writes back through output window 14 is block `t` of the new hidden state. -/
theorem flushed14_eq (c : Dev nD) (t : Fin cfg0.N) :
    (dats m 0 c).flushed 14 t = ((cfg0.win 14).blk t).view.read (Elt Ideal) (hidArr (args m c)) := by
  rw [Value.flushed14]
  unfold out0_14
  rw [View.canon_unit_zero zero_off]
  simp only [View.ld_unit_zero (S := S128x1024) zero_off, View.ld_unit_zero (S := S128x256) zero_off,
    View.ld_unit_zero (S := S1024x4096) zero_off, View.ld_unit_zero (S := S256x4096) zero_off,
    View.ld_unit_zero (S := S1x4096) zero_off, View.ld_unit_zero (S := S1024x1024) zero_off,
    View.ld_unit_zero (S := S1x1024) zero_off]
  refine ext_ix2 (n0 := 128) (n1 := 1024) _ _ fun p j => ?_
  show k0_pay2 (F := Ideal) (k0_pay3 (iblk m c 2 t)) (iblk m c 4 t)
      (k0_pay4 (iblk m c 0 t) (iblk m c 1 t) (iblk m c 3 t) (iblk m c 5 t) (iblk m c 6 t) (iblk m c 7 t) (iblk m c 9 t) (iblk m c 10 t) (iblk m c 11 t))
      (k0_pay5 (iblk m c 8 t)) (iblk m c 12 t) (ix2 p j)
    = hidArr (args m c) (((cfg0.win 14).blk t).view.emb (ix2 p j))
  refine (Body.block_hid (args m c) (row t) (iblk m c 0 t) (iblk m c 1 t) (iblk m c 3 t) (iblk m c 5 t) (iblk m c 6 t) (iblk m c 7 t)
      (iblk m c 9 t) (iblk m c 10 t) (iblk m c 11 t) (iblk m c 2 t) (iblk m c 4 t) (iblk m c 8 t) (iblk m c 12 t)
      (x_blk m c t) (h_blk m c t) (s_blk m c t) (ww_blk m c t) (uw_blk m c t) (sw_blk m c t)
      (wb_blk m c t) (ub_blk m c t) (sb_blk m c t) (z_blk m c t) (c_blk m c t) (vw_blk m c t) (vb_blk m c t) p j).trans ?_
  rw [emb14]
  rfl

/-! ## The blocks tile the arrays -/

/-- An index of the array is in point `t`'s block iff each coordinate is in the block's range on its axis. -/
theorem mem_blk13 (t : Fin cfg0.N) (i : S8192x1024.Idx) :
    i ∈ ((cfg0.win 13).blk t).view.set ↔ ∀ a : Fin 2, win0_13.index t a * S128x1024.size a ≤ (i a).val ∧ (i a).val < win0_13.index t a * S128x1024.size a + S128x1024.size a := by
  show i ∈ ((View.whole main_v8_0).slice (win0_13.rect t)).set ↔ _
  rw [View.set_slice_whole, Rect.mem_set_unit]
  exact Iff.rfl

/-- Row `r` of the array lies in the block of point `r / 128`: the 64 blocks of 128 rows tile the 8192 rows. -/
theorem cover13 (i : S8192x1024.Idx) :
    ∃ t : Fin cfg0.N, (cfg0.win 13).flush t = true ∧ i ∈ ((cfg0.win 13).blk t).view.set := by
  have hi0 : (i 0).val < 8192 := (i 0).isLt
  have hi1 : (i 1).val < 1024 := (i 1).isLt
  have hN : cfg0.N = 64 := N_0
  have hlt : (i 0).val / 128 < cfg0.N := by rw [hN]; omega
  obtain ⟨e0, e1⟩ := idx13 ⟨(i 0).val / 128, hlt⟩
  refine ⟨⟨(i 0).val / 128, hlt⟩, flush0_13 _, ?_⟩
  rw [mem_blk13]
  intro a
  match a with
  | ⟨0, _⟩ =>
    show win0_13.index ⟨(i 0).val / 128, hlt⟩ (0 : Fin 2) * 128 ≤ (i 0).val ∧ (i 0).val < win0_13.index ⟨(i 0).val / 128, hlt⟩ (0 : Fin 2) * 128 + 128
    rw [e0]
    show (i 0).val / 128 * 128 ≤ (i 0).val ∧ (i 0).val < (i 0).val / 128 * 128 + 128
    omega
  | ⟨1, _⟩ =>
    show win0_13.index ⟨(i 0).val / 128, hlt⟩ (1 : Fin 2) * 1024 ≤ (i 1).val ∧ (i 1).val < win0_13.index ⟨(i 0).val / 128, hlt⟩ (1 : Fin 2) * 1024 + 1024
    rw [e1]
    omega

/-- An index of the array is in point `t`'s block iff each coordinate is in the block's range on its axis. -/
theorem mem_blk14 (t : Fin cfg0.N) (i : S8192x1024.Idx) :
    i ∈ ((cfg0.win 14).blk t).view.set ↔ ∀ a : Fin 2, win0_14.index t a * S128x1024.size a ≤ (i a).val ∧ (i a).val < win0_14.index t a * S128x1024.size a + S128x1024.size a := by
  show i ∈ ((View.whole main_v8_1).slice (win0_14.rect t)).set ↔ _
  rw [View.set_slice_whole, Rect.mem_set_unit]
  exact Iff.rfl

/-- Row `r` of the array lies in the block of point `r / 128`: the 64 blocks of 128 rows tile the 8192 rows. -/
theorem cover14 (i : S8192x1024.Idx) :
    ∃ t : Fin cfg0.N, (cfg0.win 14).flush t = true ∧ i ∈ ((cfg0.win 14).blk t).view.set := by
  have hi0 : (i 0).val < 8192 := (i 0).isLt
  have hi1 : (i 1).val < 1024 := (i 1).isLt
  have hN : cfg0.N = 64 := N_0
  have hlt : (i 0).val / 128 < cfg0.N := by rw [hN]; omega
  obtain ⟨e0, e1⟩ := idx14 ⟨(i 0).val / 128, hlt⟩
  refine ⟨⟨(i 0).val / 128, hlt⟩, flush0_14 _, ?_⟩
  rw [mem_blk14]
  intro a
  match a with
  | ⟨0, _⟩ =>
    show win0_14.index ⟨(i 0).val / 128, hlt⟩ (0 : Fin 2) * 128 ≤ (i 0).val ∧ (i 0).val < win0_14.index ⟨(i 0).val / 128, hlt⟩ (0 : Fin 2) * 128 + 128
    rw [e0]
    show (i 0).val / 128 * 128 ≤ (i 0).val ∧ (i 0).val < (i 0).val / 128 * 128 + 128
    omega
  | ⟨1, _⟩ =>
    show win0_14.index ⟨(i 0).val / 128, hlt⟩ (1 : Fin 2) * 1024 ≤ (i 1).val ∧ (i 1).val < win0_14.index ⟨(i 0).val / 128, hlt⟩ (1 : Fin 2) * 1024 + 1024
    rw [e1]
    omega

/-- After the run the first output array is the new cell state. -/
theorem final13 (c : Dev nD) : (dats m 0 c).arrAt 13 cfg0.N = cellArr (args m c) :=
  (dats m 0 c).arrAt_eq_of_cover 13 (cellArr (args m c)) (fun t _ => flushed13_eq m c t) cover13

/-- After the run the second output array is the new hidden state. -/
theorem final14 (c : Dev nD) : (dats m 0 c).arrAt 14 cfg0.N = hidArr (args m c) :=
  (dats m 0 c).arrAt_eq_of_cover 14 (hidArr (args m c)) (fun t _ => flushed14_eq m c t) cover14

/-- The kernel's run: both results at the cell's two arrays of the arguments, the arguments unchanged. -/
theorem run : θ_run defs (onTc (τ := τ) (main (F := Ideal))) ⟨m, fun _ => 0, ρ⟩ fun r => ∀ c : Dev nD,
      r.2.mem ((c : Thread nD τ).loc main_v8_0) = cellArr (args m c)
      ∧ r.2.mem ((c : Thread nD τ).loc main_v8_1) = hidArr (args m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun r h c => ⟨(h c).1.trans (final13 m c), (h c).2.1.trans (final14 m c), (h c).2.2⟩)
    (Value.run_blocks m ρ)

end Cert.KernelIdeal.Blocks

end
-- ==== Proof.RefCell.lean ====
/-
  The reference program computes the cell of Spec.lean.

  Read one operation at a time and at one entry `(r, j)`: each of the four matrix products is a sum over the contracted
  coordinate; a bias is laid along every row; the stacked pre-activation is the three affine maps added; a gate is a
  column range of it; the program spells the logistic function `1 / (1 + exp (−v))`, with the literal one the extended real
  `1`, which is the logistic function's definition; `tanh` is `tanh`. So the two results, entry by entry, are the new cell
  state and the new hidden state of Spec.lean.
-/
import proofs.«102356_j20504173871325_1_alg».proof.Proof.Gen.ReferenceIdeal.Read
import proofs.«102356_j20504173871325_1_alg».proof.Proof.Spec

noncomputable section

namespace Cert.ReferenceIdeal.RefCell

open Cert.ReferenceIdeal Cert.ReferenceIdeal.Read Idealize.ShloMosaic Idealize.ShloMosaic.TcCoe Idealize.ShloMosaic.ValueIdx
open Cert.Cell

/-! ## The composed index functions at `(r, J)` -/

theorem lidx0_eq (r : Fin 8192) (J : Fin 4096) (k : Fin 1024) : lidx_main_v0 (ix2 r J) k = ix2 r k :=
  funext fun a => Fin.ext (by match a with | ⟨0, _⟩ => rfl | ⟨1, _⟩ => rfl)
theorem ridx0_eq (r : Fin 8192) (J : Fin 4096) (k : Fin 1024) : ridx_main_v0 (ix2 r J) k = ix2 k J :=
  funext fun a => Fin.ext (by match a with | ⟨0, _⟩ => rfl | ⟨1, _⟩ => rfl)
theorem lidx4_eq (r : Fin 8192) (J : Fin 4096) (k : Fin 1024) : lidx_main_v4 (ix2 r J) k = ix2 r k :=
  funext fun a => Fin.ext (by match a with | ⟨0, _⟩ => rfl | ⟨1, _⟩ => rfl)
theorem ridx4_eq (r : Fin 8192) (J : Fin 4096) (k : Fin 1024) : ridx_main_v4 (ix2 r J) k = ix2 k J :=
  funext fun a => Fin.ext (by match a with | ⟨0, _⟩ => rfl | ⟨1, _⟩ => rfl)
theorem lidx9_eq (r : Fin 8192) (J : Fin 4096) (k : Fin 256) : lidx_main_v9 (ix2 r J) k = ix2 r k :=
  funext fun a => Fin.ext (by match a with | ⟨0, _⟩ => rfl | ⟨1, _⟩ => rfl)
theorem ridx9_eq (r : Fin 8192) (J : Fin 4096) (k : Fin 256) : ridx_main_v9 (ix2 r J) k = ix2 k J :=
  funext fun a => Fin.ext (by match a with | ⟨0, _⟩ => rfl | ⟨1, _⟩ => rfl)
theorem lidx14_eq (r : Fin 8192) (j : Fin 1024) (k : Fin 1024) : lidx_main_v14 (ix2 r j) k = ix2 r k :=
  funext fun a => Fin.ext (by match a with | ⟨0, _⟩ => rfl | ⟨1, _⟩ => rfl)
theorem ridx14_eq (r : Fin 8192) (j : Fin 1024) (k : Fin 1024) : ridx_main_v14 (ix2 r j) k = ix2 k j :=
  funext fun a => Fin.ext (by match a with | ⟨0, _⟩ => rfl | ⟨1, _⟩ => rfl)

/-- A bias laid along every row reads, at `(r, J)`, the bias at `J`. -/
theorem bias_W (r : Fin 8192) (J : Fin 4096) : idx_main_v1 (idx_main_v2 (ix2 r J)) = ix1 J :=
  funext fun a => Fin.ext (by match a with | ⟨0, _⟩ => rfl)
theorem bias_U (r : Fin 8192) (J : Fin 4096) : idx_main_v5 (idx_main_v6 (ix2 r J)) = ix1 J :=
  funext fun a => Fin.ext (by match a with | ⟨0, _⟩ => rfl)
theorem bias_S (r : Fin 8192) (J : Fin 4096) : idx_main_v10 (idx_main_v11 (ix2 r J)) = ix1 J :=
  funext fun a => Fin.ext (by match a with | ⟨0, _⟩ => rfl)
theorem bias_V (r : Fin 8192) (j : Fin 1024) : idx_main_v15 (idx_main_v16 (ix2 r j)) = ix1 j :=
  funext fun a => Fin.ext (by match a with | ⟨0, _⟩ => rfl)

/-- The four gates' column ranges. -/
theorem gate0_idx (r : Fin 8192) (j : Fin 1024) : idx_main_v18 (ix2 r j) = ix2 r (col 0 (by omega) j) :=
  funext fun a => Fin.ext (by match a with | ⟨0, _⟩ => rfl | ⟨1, _⟩ => rfl)
theorem gate1_idx (r : Fin 8192) (j : Fin 1024) : idx_main_v25 (ix2 r j) = ix2 r (col 1024 (by omega) j) :=
  funext fun a => Fin.ext (by match a with | ⟨0, _⟩ => rfl | ⟨1, _⟩ => exact Nat.add_comm _ _)
theorem gate2_idx (r : Fin 8192) (j : Fin 1024) : idx_main_v32 (ix2 r j) = ix2 r (col 2048 (by omega) j) :=
  funext fun a => Fin.ext (by match a with | ⟨0, _⟩ => rfl | ⟨1, _⟩ => exact Nat.add_comm _ _)
theorem gate3_idx (r : Fin 8192) (j : Fin 1024) : idx_main_v39 (ix2 r j) = ix2 r (col 3072 (by omega) j) :=
  funext fun a => Fin.ext (by match a with | ⟨0, _⟩ => rfl | ⟨1, _⟩ => exact Nat.add_comm _ _)

/-! ## The stages -/

variable (A : Args)

/-- The stacked pre-activation. -/
theorem pre_eq (r : Fin 8192) (J : Fin 4096) :
    val_main_v13 (F := Ideal) A.x A.h A.s A.Ww A.Wb A.Uw A.Ub A.Sw A.Sb (ix2 r J) = pre A r J := by
  rw [val_main_v13_apply, val_main_v8_apply, val_main_v3_apply, val_main_v7_apply, val_main_v12_apply,
    val_main_v0_apply, val_main_v4_apply, val_main_v9_apply,
    val_main_v2_apply, val_main_v1_apply, val_main_v6_apply, val_main_v5_apply, val_main_v11_apply, val_main_v10_apply,
    bias_W, bias_U, bias_S]
  simp only [lidx0_eq, ridx0_eq, lidx4_eq, ridx4_eq, lidx9_eq, ridx9_eq]
  rfl

/-- The hybrid gate's pre-activation. -/
theorem hyb_eq (r : Fin 8192) (j : Fin 1024) :
    val_main_v17 (F := Ideal) A.z A.Vw A.Vb (ix2 r j) = hyb A r j := by
  rw [val_main_v17_apply, val_main_v14_apply, val_main_v16_apply, val_main_v15_apply, bias_V]
  simp only [lidx14_eq, ridx14_eq]
  rfl

/-- The forget gate: the logistic function of the first column range. -/
theorem gate0_eq (r : Fin 8192) (j : Fin 1024) :
    val_main_v24 (F := Ideal) A.x A.h A.s A.Ww A.Wb A.Uw A.Ub A.Sw A.Sb (ix2 r j)
      = Ideal.logistic (pre A r (col 0 (by omega) j)) := by
  rw [val_main_v24_apply, val_main_v23_apply, val_main_cst_0_apply, val_main_v22_apply, val_main_v21_apply,
    val_main_cst_apply, val_main_v20_apply, val_main_v19_apply, val_main_v18_apply, gate0_idx, pre_eq]
  show Ideal.div (Ideal.ofBits .f32 0x3F800000#32) (Ideal.ofBits .f32 0x3F800000#32 + Ideal.exp (-(pre A r (col 0 (by omega) j)))) = _
  rw [one_word]
  rfl

/-- The input gate: the logistic function of the second column range. -/
theorem gate1_eq (r : Fin 8192) (j : Fin 1024) :
    val_main_v31 (F := Ideal) A.x A.h A.s A.Ww A.Wb A.Uw A.Ub A.Sw A.Sb (ix2 r j)
      = Ideal.logistic (pre A r (col 1024 (by omega) j)) := by
  rw [val_main_v31_apply, val_main_v30_apply, val_main_cst_2_apply, val_main_v29_apply, val_main_v28_apply,
    val_main_cst_1_apply, val_main_v27_apply, val_main_v26_apply, val_main_v25_apply, gate1_idx, pre_eq]
  show Ideal.div (Ideal.ofBits .f32 0x3F800000#32) (Ideal.ofBits .f32 0x3F800000#32 + Ideal.exp (-(pre A r (col 1024 (by omega) j)))) = _
  rw [one_word]
  rfl

/-- The output gate: the logistic function of the third column range. -/
theorem gate2_eq (r : Fin 8192) (j : Fin 1024) :
    val_main_v38 (F := Ideal) A.x A.h A.s A.Ww A.Wb A.Uw A.Ub A.Sw A.Sb (ix2 r j)
      = Ideal.logistic (pre A r (col 2048 (by omega) j)) := by
  rw [val_main_v38_apply, val_main_v37_apply, val_main_cst_4_apply, val_main_v36_apply, val_main_v35_apply,
    val_main_cst_3_apply, val_main_v34_apply, val_main_v33_apply, val_main_v32_apply, gate2_idx, pre_eq]
  show Ideal.div (Ideal.ofBits .f32 0x3F800000#32) (Ideal.ofBits .f32 0x3F800000#32 + Ideal.exp (-(pre A r (col 2048 (by omega) j)))) = _
  rw [one_word]
  rfl

/-- The candidate: `tanh` of the fourth column range. -/
theorem cand_eq (r : Fin 8192) (j : Fin 1024) :
    val_main_v40 (F := Ideal) A.x A.h A.s A.Ww A.Wb A.Uw A.Ub A.Sw A.Sb (ix2 r j)
      = Ideal.tanh (pre A r (col 3072 (by omega) j)) := by
  rw [val_main_v40_apply, val_main_v39_apply, gate3_idx, pre_eq]
  rfl

/-- The hybrid gate: the logistic function of its own pre-activation. -/
theorem gateH_eq (r : Fin 8192) (j : Fin 1024) :
    val_main_v46 (F := Ideal) A.z A.Vw A.Vb (ix2 r j) = Ideal.logistic (hyb A r j) := by
  rw [val_main_v46_apply, val_main_v45_apply, val_main_cst_6_apply, val_main_v44_apply, val_main_v43_apply,
    val_main_cst_5_apply, val_main_v42_apply, val_main_v41_apply, hyb_eq]
  show Ideal.div (Ideal.ofBits .f32 0x3F800000#32) (Ideal.ofBits .f32 0x3F800000#32 + Ideal.exp (-(hyb A r j))) = _
  rw [one_word]
  rfl

/-- The first result is the new cell state. -/
theorem cell_eq :
    val_main_v51 (F := Ideal) A.x A.c A.h A.z A.s A.Ww A.Wb A.Uw A.Ub A.Vw A.Vb A.Sw A.Sb = cellArr A := by
  funext i
  obtain ⟨r, j, rfl⟩ : ∃ (r : Fin 8192) (j : Fin 1024), i = ix2 r j := ⟨i 0, i 1, eq_ix2 i⟩
  rw [val_main_v51_apply, val_main_v49_apply, val_main_v47_apply, val_main_v48_apply, val_main_v50_apply,
    gate0_eq, gate1_eq, cand_eq, gateH_eq]
  rfl

/-- The second result is the new hidden state. -/
theorem hid_eq :
    val_main_v53 (F := Ideal) A.x A.c A.h A.z A.s A.Ww A.Wb A.Uw A.Ub A.Vw A.Vb A.Sw A.Sb = hidArr A := by
  funext i
  obtain ⟨r, j, rfl⟩ : ∃ (r : Fin 8192) (j : Fin 1024), i = ix2 r j := ⟨i 0, i 1, eq_ix2 i⟩
  rw [val_main_v53_apply, val_main_v52_apply, congrFun (cell_eq A) (ix2 r j), gate2_eq]
  rfl

end Cert.ReferenceIdeal.RefCell

end
-- ==== Proof.lean ====
/-
  A gated recurrent cell (an LSTM cell with a fifth, "hybrid" gate), computed by one pallas_call over 64 row blocks,
  against its jnp reference: equivalence over the extended reals.

  Both programs compute, for a batch row `r` and a column `j`, the stacked pre-activation
  `(x·Ww + Wb) + (h·Uw + Ub) + (s·Sw + Sb)` and the hybrid pre-activation `z·Vw + Vb`, then
      c' = σ(pre r j)·c + σ(pre r (j+1024))·tanh(pre r (j+3072)) + σ(hyb r j)·c,    h' = tanh(c')·σ(pre r (j+2048)).
  They differ in three spellings, none of which changes a value over the extended reals:
    · the kernel narrows its matrix operands to half precision (the identity there) and multiplies a 128-row block at a
      time into a zero accumulator, where the reference has one whole product: entry by entry both are the same sum over
      the contracted coordinate;
    · the kernel adds the three products first and the three bias rows, added to one another, afterwards, where the
      reference adds each bias to its own product: addition of extended reals is commutative and associative, so no
      finiteness is used (the precondition is never opened);
    · the kernel has one logistic operation where the reference spells `1 / (1 + exp (−v))`: that quotient is the
      logistic function's definition, and the literal one denotes `1`.
  Spec.lean states the cell; Payload.lean and Point.lean read the kernel body at an entry; Blocks.lean tiles the arrays
  with the 64 blocks; RefCell.lean reads the reference. The idealization rewrote nothing, so `preserves` is trivial.
-/
import proofs.«102356_j20504173871325_1_alg».proof.Defs
import proofs.«102356_j20504173871325_1_alg».proof.Proof.Gen.Kernel
import proofs.«102356_j20504173871325_1_alg».proof.Proof.Gen.Kernel.Skeleton
import proofs.«102356_j20504173871325_1_alg».proof.Proof.Gen.Kernel.Launch
import proofs.«102356_j20504173871325_1_alg».proof.Proof.Gen.Kernel.Points
import proofs.«102356_j20504173871325_1_alg».proof.Proof.Gen.Kernel.Frame
import proofs.«102356_j20504173871325_1_alg».proof.Proof.Gen.KernelIdeal
import proofs.«102356_j20504173871325_1_alg».proof.Proof.Gen.KernelIdeal.Skeleton
import proofs.«102356_j20504173871325_1_alg».proof.Proof.Gen.KernelIdeal.Launch
import proofs.«102356_j20504173871325_1_alg».proof.Proof.Gen.KernelIdeal.Points
import proofs.«102356_j20504173871325_1_alg».proof.Proof.Gen.KernelIdeal.Frame
import proofs.«102356_j20504173871325_1_alg».proof.Proof.Gen.ReferenceIdeal
import proofs.«102356_j20504173871325_1_alg».proof.Proof.Gen.KernelIdeal.Value
import proofs.«102356_j20504173871325_1_alg».proof.Proof.Gen.ReferenceIdeal.Run
import proofs.«102356_j20504173871325_1_alg».proof.Proof.Gen.ReferenceIdeal.Read
import proofs.«102356_j20504173871325_1_alg».proof.Proof.Gen.Pre_finite_inputs
import proofs.«102356_j20504173871325_1_alg».proof.Proof.Blocks
import proofs.«102356_j20504173871325_1_alg».proof.Proof.RefCell
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as they were. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- So does the reference: its run, with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- From memories that agree on the thirteen arguments, both programs end with the new cell state and the new hidden
    state of Spec.lean, of the kernel's arguments. -/
theorem algebraic : Cert.algebraic_KernelIdeal_ReferenceIdeal := by
  intro m ρ m' ρ' _ hagree
  refine ⟨_, _, Cert.KernelIdeal.Blocks.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5, h6, h7, h8, h9, h10, h11, h12⟩ := hagree c
    rw [Cert.ReferenceIdeal.Read.val_main_v51_eq, h0, h1, h2, h3, h4, h5, h6, h7, h8, h9, h10, h11, h12]
    exact Cert.ReferenceIdeal.RefCell.cell_eq (Cert.KernelIdeal.Blocks.args m c)
  · obtain ⟨h0, h1, h2, h3, h4, h5, h6, h7, h8, h9, h10, h11, h12⟩ := hagree c
    rw [Cert.ReferenceIdeal.Read.val_main_v53_eq, h0, h1, h2, h3, h4, h5, h6, h7, h8, h9, h10, h11, h12]
    exact Cert.ReferenceIdeal.RefCell.hid_eq (Cert.KernelIdeal.Blocks.args m c)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
